-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128 : Shape := ⟨1, ![128]⟩
abbrev S128x128 : Shape := ⟨2, ![128, 128]⟩
abbrev S256x256 : Shape := ⟨2, ![256, 256]⟩
abbrev S256 : Shape := ⟨1, ![256]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_

variable [Facts]

def fn_part3 {F : FTy → Type} [FloatOps F] (main_arg13 : FVec F S128x256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S128x256 .f32 := Host.absf main_arg13
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  main_v58

def fn_part2 {F : FTy → Type} [FloatOps F] (main_arg9 : FVec F S128x128 .f32) (main_arg10 : FVec F S128 .f32) (main_arg11 : FVec F S256x256 .f32) (main_arg12 : FVec F S256 .f32) (main_arg13 : FVec F S128x256 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S256x256 .f32) (main_arg12 : FVec F S256 .f32) (main_arg13 : FVec F S128x256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S1600000 32) (main_arg2 : IVec S1600000 32) (main_arg3 : FVec F S1600000 .f32) (main_arg4 : FVec F S1600000 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S256x256 .f32) (main_arg12 : FVec F S256 .f32) (main_arg13 : FVec F S128x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S1600000 : Shape := ⟨1, ![1600000]⟩
abbrev S128 : Shape := ⟨1, ![128]⟩
abbrev S128x128 : Shape := ⟨2, ![128, 128]⟩
abbrev S256x256 : Shape := ⟨2, ![256, 256]⟩
abbrev S256 : Shape := ⟨1, ![256]⟩
abbrev S128x256 : Shape := ⟨2, ![128, 256]⟩
abbrev S_ : Shape := ⟨0, ![]⟩
abbrev S1x128 : Shape := ⟨2, ![1, 128]⟩
abbrev S1x256 : Shape := ⟨2, ![1, 256]⟩
abbrev S2000x128 : Shape := ⟨2, ![2000, 128]⟩
abbrev S1600000x1 : Shape := ⟨2, ![1600000, 1]⟩
abbrev S1600000x128 : Shape := ⟨2, ![1600000, 128]⟩
abbrev S2000x256 : Shape := ⟨2, ![2000, 256]⟩

abbrev nBuf : Space → Nat
  | .hbm => 91
  | .vmem => 25
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S1600000, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x256, .f32⟩
  | .hbm, ⟨12, _⟩ => ⟨S256, .f32⟩
  | .hbm, ⟨13, _⟩ => ⟨S128x256, .f32⟩
  | .hbm, ⟨14, _⟩ => ⟨S_, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S_, .f32⟩
  | .hbm, ⟨24, _⟩ => ⟨S1x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x256, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S1600000x1, .f32⟩
  | .hbm, ⟨68, _⟩ => ⟨S1600000x128, .f32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S1600000x1, .f32⟩
  | .hbm, ⟨84, _⟩ => ⟨S1600000x128, .f32⟩
  | .hbm, ⟨85, _⟩ => ⟨S1600000x128, .f32⟩
  | .hbm, ⟨86, _⟩ => ⟨S_, .f32⟩
  | .hbm, ⟨87, _⟩ => ⟨S100000x128, .f32⟩
  | .hbm, ⟨88, _⟩ => ⟨S1600000x1, .i32⟩
  | .hbm, ⟨89, _⟩ => ⟨S100000x128, .f32⟩
  | .hbm, ⟨90, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S256x256, .f32⟩
  | .local _ .vmem, ⟨21, _⟩ => ⟨S1x256, .f32⟩
  | .local _ .vmem, ⟨22, _⟩ => ⟨S128x256, .f32⟩
  | .local _ .vmem, ⟨23, _⟩ => ⟨S2000x128, .f32⟩
  | .local _ .vmem, ⟨24, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_cst_3 : Ref sig .tc := ⟨.hbm, 36, rfl⟩
abbrev main_call0_v12 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v3 : Ref sig .tc := ⟨.hbm, 41, rfl⟩
abbrev main_cst_1 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16_0 : Ref sig .tc := ⟨.hbm, 55, rfl⟩
abbrev main_v16_1 : Ref sig .tc := ⟨.hbm, 56, rfl⟩
abbrev main_v16_2 : Ref sig .tc := ⟨.hbm, 57, rfl⟩
abbrev main_c_2 : Ref sig .tc := ⟨.hbm, 58, rfl⟩
abbrev main_v17 : Ref sig .tc := ⟨.hbm, 59, rfl⟩
abbrev main_v18 : Ref sig .tc := ⟨.hbm, 60, rfl⟩
abbrev main_c_3 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_4 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_c_5 : Ref sig .tc := ⟨.hbm, 74, rfl⟩
abbrev main_v30 : Ref sig .tc := ⟨.hbm, 75, rfl⟩
abbrev main_v31 : Ref sig .tc := ⟨.hbm, 76, rfl⟩
abbrev main_c_6 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_cst_7 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  shapeCasts_S128_S1x128 : S128.ShapeCasts S1x128
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S2000x128_S2000x128 : S2000x128.ShapeCasts S2000x128
  concatenates_S2000x128_S2000x128_S2000x256_d1 : Shape.Concatenates [S2000x128, S2000x128] S2000x256 1
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2000x256_o0_0_S2000x128 : S2000x256.Slices ![0, 0] S2000x128
  slices_S2000x256_o0_128_S2000x128 : S2000x256.Slices ![0, 128] S2000x128
  inb_S128x256_S128x256_0_0 : ∀ a, (![0, 0] : Fin 2 → Nat) a + S128x256.size a ≤ S128x256.size a
  h_S128x256 : 0 < S128x256.numel
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x256_S256x256_S2000x256_1_0_0_1_n_n_wf : DotDims.WF S2000x256 S256x256 S2000x256 [1] [0] [0] [1] [] []
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .f32 = 32 ∨ (Rect.block (s := S100000x128) S2000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16_1) S2000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v16_2) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v16_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128 : Shape := ⟨1, ![128]⟩
abbrev S128x128 : Shape := ⟨2, ![128, 128]⟩
abbrev S256x256 : Shape := ⟨2, ![256, 256]⟩
abbrev S256 : Shape := ⟨1, ![256]⟩
abbrev S128x256 : Shape := ⟨2, ![128, 256]⟩
abbrev S_ : Shape := ⟨0, ![]⟩
abbrev S1x128 : Shape := ⟨2, ![1, 128]⟩
abbrev S1600000x1 : Shape := ⟨2, ![1600000, 1]⟩
abbrev S1600000x128 : Shape := ⟨2, ![1600000, 128]⟩
abbrev S100000x256 : Shape := ⟨2, ![100000, 256]⟩
abbrev S1x256 : Shape := ⟨2, ![1, 256]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S1600000, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x256, .f32⟩
  | .hbm, ⟨12, _⟩ => ⟨S256, .f32⟩
  | .hbm, ⟨13, _⟩ => ⟨S128x256, .f32⟩
  | .hbm, ⟨14, _⟩ => ⟨S_, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S_, .f32⟩
  | .hbm, ⟨24, _⟩ => ⟨S1x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S1600000x1, .f32⟩
  | .hbm, ⟨76, _⟩ => ⟨S1600000x128, .f32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x128, .f32⟩
  | .hbm, ⟨91, _⟩ => ⟨S1600000x1, .f32⟩
  | .hbm, ⟨92, _⟩ => ⟨S1600000x128, .f32⟩
  | .hbm, ⟨93, _⟩ => ⟨S1600000x128, .f32⟩
  | .hbm, ⟨94, _⟩ => ⟨S_, .f32⟩
  | .hbm, ⟨95, _⟩ => ⟨S100000x128, .f32⟩
  | .hbm, ⟨96, _⟩ => ⟨S1600000x1, .i32⟩
  | .hbm, ⟨97, _⟩ => ⟨S100000x128, .f32⟩
  | .hbm, ⟨98, _⟩ => ⟨S100000x256, .f32⟩
  | .hbm, ⟨99, _⟩ => ⟨S100000x256, .f32⟩
  | .hbm, ⟨100, _⟩ => ⟨S1x256, .f32⟩
  | .hbm, ⟨101, _⟩ => ⟨S100000x256, .f32⟩
  | .hbm, ⟨102, _⟩ => ⟨S100000x256, .f32⟩
  | .hbm, ⟨103, _⟩ => ⟨S100000x128, .f32⟩
  | .hbm, ⟨104, _⟩ => ⟨S100000x128, .f32⟩
  | .hbm, ⟨105, _⟩ => ⟨S100000x256, .f32⟩
  | .hbm, ⟨106, _⟩ => ⟨S100000x128, .f32⟩
  | .hbm, ⟨107, _⟩ => ⟨S100000x128, .f32⟩
  | .hbm, ⟨108, _⟩ => ⟨S100000x128, .f32⟩
  | .hbm, ⟨109, _⟩ => ⟨S100000x128, .f32⟩
  | .hbm, ⟨110, _⟩ => ⟨S100000x128, .f32⟩
  | .hbm, ⟨111, _⟩ => ⟨S_, .f32⟩
  | .hbm, ⟨112, _⟩ => ⟨S100000x128, .f32⟩
  | .hbm, ⟨113, _⟩ => ⟨S100000x128, .f32⟩
  | .hbm, ⟨114, _⟩ => ⟨S_, .f32⟩
  | .hbm, ⟨115, _⟩ => ⟨S100000x128, .f32⟩
  | .hbm, ⟨116, _⟩ => ⟨S100000x128, .f32⟩
  | .hbm, ⟨117, _⟩ => ⟨S100000x128, .f32⟩
  | .hbm, ⟨118, _⟩ => ⟨S100000x128, .f32⟩
  | .hbm, ⟨119, _⟩ => ⟨S100000x128, .f32⟩
  | .hbm, ⟨120, _⟩ => ⟨S100000x128, .f32⟩
  | .hbm, ⟨121, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_cst_3 : Ref sig .tc := ⟨.hbm, 36, rfl⟩
abbrev main_call0_v12 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_cst_1 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_c_2 : Ref sig .tc := ⟨.hbm, 66, rfl⟩
abbrev main_v27 : Ref sig .tc := ⟨.hbm, 67, rfl⟩
abbrev main_v28 : Ref sig .tc := ⟨.hbm, 68, rfl⟩
abbrev main_c_3 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_4 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_c_5 : Ref sig .tc := ⟨.hbm, 82, rfl⟩
abbrev main_v40 : Ref sig .tc := ⟨.hbm, 83, rfl⟩
abbrev main_v41 : Ref sig .tc := ⟨.hbm, 84, rfl⟩
abbrev main_c_6 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_7 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_8 : Ref sig .tc := ⟨.hbm, 111, rfl⟩
abbrev main_v66 : Ref sig .tc := ⟨.hbm, 112, rfl⟩
abbrev main_v67 : Ref sig .tc := ⟨.hbm, 113, rfl⟩
abbrev main_cst_9 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩

abbrev nD : Nat := 1
abbrev τ : Topo := Topo.v7x

variable {F : FTy → Type} [FloatOps F]

class Facts₀ : Prop where
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S100000x256_S100000x128_0_0 : S100000x256.Slices ![0, 0] S100000x128
  slices_S100000x256_S100000x128_0_128 : S100000x256.Slices ![0, 128] S100000x128
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x256_S100000x256_1_0_0_1_n_n_wf : DotDims.WF S100000x256 S256x256 S100000x256 [1] [0] [0] [1] [] []
  dot_S100000x128_S128x256_S100000x256_1_0_0_1_n_n_wf : DotDims.WF S100000x128 S128x256 S100000x256 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.RefTerm.lean ====
/-
  The reference's result as a composition of whole-array stages, in the order its host operations compute them:
  the column mean and variance of the features, the reciprocal deviation, the normalised rows, a projection (matrix
  product plus a bias laid along the rows), the edge aggregation (gather the rows at one end of each edge, weight them,
  sum them at the other end), and the gated update. Each stage is the host operations' own term; nothing is evaluated.
-/
import proofs.«135574_j25091198943527_1_alg».proof.Proof.Gen.ReferenceIdeal
import Idealize.ShloMosaic.PureOps.Ideal

noncomputable section

namespace Cert.ReferenceIdeal.Term

open Idealize.ShloMosaic Cert.ReferenceIdeal Cert.ReferenceIdeal.Facts₀

/-- The column sums divided by the number of rows. -/
def colMean (feat : FVec Ideal S100000x128 .f32) : FVec Ideal S128 .f32 :=
  Host.divf (Host.reduceAdd feat (constant S_ .f32 0x00000000#32) reducesTo_S100000x128_S128_d0 h_S_)
    (broadcastInDim S128 ![] bcast_S_S128 (constant S_ .f32 0x47C35000#32))

/-- The column variance: the mean of the squared deviations from the column mean, guarded by the test that the
    divisor (the row count less the zero correction) is positive. -/
def colVar (feat : FVec Ideal S100000x128 .f32) : FVec Ideal S128 .f32 :=
  select
    (broadcastInDim S128 ![] bcast_S_S128
      (cmpf (F := Ideal) .ogt (subf (constant S_ .f32 0x47C35000#32) (sitofp .f32 (constantI S_ 32 0#32))) (constant S_ .f32 0x00000000#32)))
    (Host.divf
      (Host.reduceAdd
        (mulf
          (subf feat (broadcastInDim S100000x128 ![0, 1] bcast_S1x128_S100000x128_0_1
            (Host.divf (broadcastInDim S1x128 ![1] bcast_S128_S1x128_1
                (Host.reduceAdd feat (constant S_ .f32 0x00000000#32) reducesTo_S100000x128_S128_d0 h_S_))
              (broadcastInDim S1x128 ![] bcast_S_S1x128 (constant S_ .f32 0x47C35000#32)))))
          (subf feat (broadcastInDim S100000x128 ![0, 1] bcast_S1x128_S100000x128_0_1
            (Host.divf (broadcastInDim S1x128 ![1] bcast_S128_S1x128_1
                (Host.reduceAdd feat (constant S_ .f32 0x00000000#32) reducesTo_S100000x128_S128_d0 h_S_))
              (broadcastInDim S1x128 ![] bcast_S_S1x128 (constant S_ .f32 0x47C35000#32))))))
        (constant S_ .f32 0x00000000#32) reducesTo_S100000x128_S128_d0 h_S_)
      (broadcastInDim S128 ![] bcast_S_S128
        (subf (constant S_ .f32 0x47C35000#32) (sitofp .f32 (constantI S_ 32 0#32)))))
    (broadcastInDim S128 ![] bcast_S_S128 (id (constant S_ .f32 0x7FC00000#32)))

/-- The reciprocal square root of the variance plus the small constant. -/
def invStd (feat : FVec Ideal S100000x128 .f32) : FVec Ideal S128 .f32 :=
  Host.rsqrt (addf (colVar feat) (broadcastInDim S128 ![] bcast_S_S128 (constant S_ .f32 0x3727C5AC#32)))

/-- A 128-vector laid along each of the 100000 rows. -/
def alongRows (v : FVec Ideal S128 .f32) : FVec Ideal S100000x128 .f32 :=
  broadcastInDim S100000x128 ![0, 1] bcast_S1x128_S100000x128_0_1 (broadcastInDim S1x128 ![1] bcast_S128_S1x128_1 v)

/-- The normalised rows: ((feat − mean) · invStd) · g + beta. -/
def normed (feat : FVec Ideal S100000x128 .f32) (g beta : FVec Ideal S128 .f32) : FVec Ideal S100000x128 .f32 :=
  addf (mulf (mulf (subf feat (alongRows (colMean feat))) (alongRows (invStd feat))) (alongRows g)) (alongRows beta)

/-- A projection: x·W + b. -/
def proj (x : FVec Ideal S100000x128 .f32) (W : FVec Ideal S128x128 .f32) (b : FVec Ideal S128 .f32) :
    FVec Ideal S100000x128 .f32 :=
  addf (Host.dotGeneral dot_S100000x128_S128x128_S100000x128_1_0_0_1_n_n none x W) (alongRows b)

/-- The edge aggregation: for each edge take row `gidx` of the table (a negative index counted from the end),
    weight it by the edge's weight, and add it into row `sidx` of a zero array. -/
def agg (table : FVec Ideal S100000x128 .f32) (gidx : IVec S1600000 32) (w : FVec Ideal S1600000 .f32)
    (sidx : IVec S1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 sidx)
    (mulf
      (Host.gather gather_S100000x128_S1600000x1_S1600000x128_1_0_n_n_0_1_1128 table
        (broadcastInDim S1600000x1 ![0] bcast_S1600000_S1600000x1_0
          (select (cmpi .slt gidx (broadcastInDim S1600000 ![] bcast_S_S1600000 (constantI S_ 32 0#32)))
            (addi gidx (broadcastInDim S1600000 ![] bcast_S_S1600000 (constantI S_ 32 100000#32))) gidx)))
      (broadcastInDim S1600000x128 ![0, 1] bcast_S1600000x1_S1600000x128_0_1
        (broadcastInDim S1600000x1 ![0] bcast_S1600000_S1600000x1_0 w)))

/-- f = [a_in | a_out]·Wg + bg, as the host computes it. -/
def gateF (ain aout : FVec Ideal S100000x128 .f32) (Wg : FVec Ideal S256x256 .f32) (bg : FVec Ideal S256 .f32) :
    FVec Ideal S100000x256 .f32 :=
  addf
    (Host.dotGeneral dot_S100000x256_S256x256_S100000x256_1_0_0_1_n_n none
      (concatenate S100000x256 1 [⟨S100000x128, ain⟩, ⟨S100000x128, aout⟩] concatenates_S100000x128_S100000x128_S100000x256_d1) Wg)
    (broadcastInDim S100000x256 ![0, 1] bcast_S1x256_S100000x256_0_1 (broadcastInDim S1x256 ![1] bcast_S256_S1x256_1 bg))

/-- b = x·Wgo. -/
def gateB (x : FVec Ideal S100000x128 .f32) (Wgo : FVec Ideal S128x256 .f32) : FVec Ideal S100000x256 .f32 :=
  Host.dotGeneral dot_S100000x128_S128x256_S100000x256_1_0_0_1_n_n none x Wgo

/-- The gated update from f and b: n + s·(x − n), s the logistic (spelt 1 / (1 + e^−t)) of the left halves' sum and
    n the hyperbolic tangent of the right halves' sum. -/
def gateOut (x : FVec Ideal S100000x128 .f32) (f b : FVec Ideal S100000x256 .f32) : FVec Ideal S100000x128 .f32 :=
  addf
    (Host.tanh (addf (extractStridedSlice S100000x128 ![0, 128] f slices_S100000x256_S100000x128_0_128)
      (extractStridedSlice S100000x128 ![0, 128] b slices_S100000x256_S100000x128_0_128)))
    (mulf
      (Host.divf (broadcastInDim S100000x128 ![] bcast_S_S100000x128 (constant S_ .f32 0x3F800000#32))
        (addf (broadcastInDim S100000x128 ![] bcast_S_S100000x128 (constant S_ .f32 0x3F800000#32))
          (Host.exp (Host.negf (addf (extractStridedSlice S100000x128 ![0, 0] f slices_S100000x256_S100000x128_0_0)
            (extractStridedSlice S100000x128 ![0, 0] b slices_S100000x256_S100000x128_0_0))))))
      (subf x
        (Host.tanh (addf (extractStridedSlice S100000x128 ![0, 128] f slices_S100000x256_S100000x128_0_128)
          (extractStridedSlice S100000x128 ![0, 128] b slices_S100000x256_S100000x128_0_128)))))

/-- The gated update of x from the two aggregates. -/
def gated (x ain aout : FVec Ideal S100000x128 .f32) (Wg : FVec Ideal S256x256 .f32) (bg : FVec Ideal S256 .f32)
    (Wgo : FVec Ideal S128x256 .f32) : FVec Ideal S100000x128 .f32 :=
  gateOut x (gateF ain aout Wg bg) (gateB x Wgo)

/-- The reference's result from its fourteen arguments. -/
def result (feat : FVec Ideal S100000x128 .f32) (src dst : IVec S1600000 32) (iw ow : FVec Ideal S1600000 .f32)
    (g beta : FVec Ideal S128 .f32) (Win : FVec Ideal S128x128 .f32) (bin : FVec Ideal S128 .f32)
    (Wout : FVec Ideal S128x128 .f32) (bout : FVec Ideal S128 .f32) (Wg : FVec Ideal S256x256 .f32)
    (bg : FVec Ideal S256 .f32) (Wgo : FVec Ideal S128x256 .f32) : FVec Ideal S100000x128 .f32 :=
  gated (normed feat g beta)
    (agg (proj (normed feat g beta) Win bin) src iw dst)
    (agg (proj (normed feat g beta) Wout bout) dst ow src) Wg bg Wgo

end Cert.ReferenceIdeal.Term

end
-- ==== Proof.RefRun.lean ====
/-
  The reference program's run: every weakly fair execution of its @main terminates with the result buffer at the
  composed stages of RefTerm.lean applied to the launch contents of the fourteen arguments, and the arguments unchanged.

  @main is a straight line of 108 operations once the call of @_var (and, inside it, of @_where) is replaced by the
  callee's operations over the call's own buffers. The line is cut into three stretches: the first ends with the
  normalised rows (main_v18), the second with the two edge aggregates (main_v39, main_v52), the third with the gated
  update (main_v74). Each stretch is read from an arbitrary starting valuation: the buffer it ends with holds the
  corresponding stage of RefTerm.lean applied to the buffers the stretch starts from, and a buffer the stretch does not
  write keeps its contents. The three readings compose to `Term.result` of the arguments.
-/
import proofs.«135574_j25091198943527_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

private abbrev opsA : List (HloOp τ sig (Elt F)) :=
  [ StableHlo.nullary main_cst (constant S_ .f32 0x00000000#32),
    StableHlo.binary main_arg0 main_cst main_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_0 (constant S_ .f32 0x47C35000#32),
    StableHlo.unary main_cst_0 main_v1 (broadcastInDim S128 ![] bcast_S_S128 : (⟨S_, .f32⟩ : BufTy).Contents (Elt F) → (⟨S128, .f32⟩ : BufTy).Contents (Elt F)),
    StableHlo.binary main_v0 main_v1 main_v2 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary (.of main_call0_cst : StableHlo.TRef sig ⟨S_, .f32⟩) (constant S_ .f32 0x00000000#32),
    StableHlo.TRef.binary (.of main_arg0 : StableHlo.TRef sig ⟨S100000x128, .f32⟩) (.of main_call0_cst : StableHlo.TRef sig ⟨S_, .f32⟩) (.of main_call0_v0 : StableHlo.TRef sig ⟨S128, .f32⟩) (fun x v => Host.reduceAdd x v reducesTo_S100000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S100000x128, .f32⟩) (broadcastInDim S100000x128 ![0, 1] bcast_S1x128_S100000x128_0_1),
    StableHlo.TRef.binary (.of main_arg0 : StableHlo.TRef sig ⟨S100000x128, .f32⟩) (.of main_call0_v4 : StableHlo.TRef sig ⟨S100000x128, .f32⟩) (.of main_call0_v5 : StableHlo.TRef sig ⟨S100000x128, .f32⟩) subf,
    StableHlo.TRef.binary (.of main_call0_v5 : StableHlo.TRef sig ⟨S100000x128, .f32⟩) (.of main_call0_v5 : StableHlo.TRef sig ⟨S100000x128, .f32⟩) (.of main_call0_v6 : StableHlo.TRef sig ⟨S100000x128, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x128, .f32⟩) (.of main_call0_cst_2 : StableHlo.TRef sig ⟨S_, .f32⟩) (.of main_call0_v9 : StableHlo.TRef sig ⟨S128, .f32⟩) (fun x v => Host.reduceAdd x v reducesTo_S100000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v3 : StableHlo.TRef sig ⟨S128, .f32⟩) (fun p a b => select (broadcastInDim S128 ![] bcast_S_S128 p) a b),
    StableHlo.unary main_v2 main_v4 (broadcastInDim S1x128 ![1] bcast_S128_S1x128_1 : (⟨S128, .f32⟩ : BufTy).Contents (Elt F) → (⟨S1x128, .f32⟩ : BufTy).Contents (Elt F)),
    StableHlo.unary main_v4 main_v5 (broadcastInDim S100000x128 ![0, 1] bcast_S1x128_S100000x128_0_1 : (⟨S1x128, .f32⟩ : BufTy).Contents (Elt F) → (⟨S100000x128, .f32⟩ : BufTy).Contents (Elt F)),
    StableHlo.binary main_arg0 main_v5 main_v6 (subf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x3727C5AC#32),
    StableHlo.unary main_cst_1 main_v7 (broadcastInDim S128 ![] bcast_S_S128 : (⟨S_, .f32⟩ : BufTy).Contents (Elt F) → (⟨S128, .f32⟩ : BufTy).Contents (Elt F)),
    StableHlo.binary main_v3 main_v7 main_v8 (addf : (⟨S128, .f32⟩ : BufTy).Contents (Elt F) → (⟨S128, .f32⟩ : BufTy).Contents (Elt F) → (⟨S128, .f32⟩ : BufTy).Contents (Elt F)),
    StableHlo.unary main_v8 main_v9 (Host.rsqrt : (⟨S128, .f32⟩ : BufTy).Contents (Elt F) → (⟨S128, .f32⟩ : BufTy).Contents (Elt F)),
    StableHlo.unary main_v9 main_v10 (broadcastInDim S1x128 ![1] bcast_S128_S1x128_1 : (⟨S128, .f32⟩ : BufTy).Contents (Elt F) → (⟨S1x128, .f32⟩ : BufTy).Contents (Elt F)),
    StableHlo.unary main_v10 main_v11 (broadcastInDim S100000x128 ![0, 1] bcast_S1x128_S100000x128_0_1 : (⟨S1x128, .f32⟩ : BufTy).Contents (Elt F) → (⟨S100000x128, .f32⟩ : BufTy).Contents (Elt F)),
    StableHlo.binary main_v6 main_v11 main_v12 (mulf : (⟨S100000x128, .f32⟩ : BufTy).Contents (Elt F) → (⟨S100000x128, .f32⟩ : BufTy).Contents (Elt F) → (⟨S100000x128, .f32⟩ : BufTy).Contents (Elt F)),
    StableHlo.unary main_arg5 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S100000x128 ![0, 1] bcast_S1x128_S100000x128_0_1 : (⟨S1x128, .f32⟩ : BufTy).Contents (Elt F) → (⟨S100000x128, .f32⟩ : BufTy).Contents (Elt F)),
    StableHlo.binary main_v12 main_v14 main_v15 (mulf : (⟨S100000x128, .f32⟩ : BufTy).Contents (Elt F) → (⟨S100000x128, .f32⟩ : BufTy).Contents (Elt F) → (⟨S100000x128, .f32⟩ : BufTy).Contents (Elt F)),
    StableHlo.unary main_arg6 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)) ]

private abbrev opsB : List (HloOp τ sig (Elt F)) :=
  [ StableHlo.binary main_v18 main_arg7 main_v19 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S100000x128 ![0, 1] bcast_S1x128_S100000x128_0_1 : (⟨S1x128, .f32⟩ : BufTy).Contents (Elt F) → (⟨S100000x128, .f32⟩ : BufTy).Contents (Elt F)),
    StableHlo.binary main_v19 main_v21 main_v22 (addf : (⟨S100000x128, .f32⟩ : BufTy).Contents (Elt F) → (⟨S100000x128, .f32⟩ : BufTy).Contents (Elt F) → (⟨S100000x128, .f32⟩ : BufTy).Contents (Elt F)),
    StableHlo.binary main_v18 main_arg9 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg10 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S100000x128 ![0, 1] bcast_S1x128_S100000x128_0_1 : (⟨S1x128, .f32⟩ : BufTy).Contents (Elt F) → (⟨S100000x128, .f32⟩ : BufTy).Contents (Elt F)),
    StableHlo.binary main_v23 main_v25 main_v26 (addf : (⟨S100000x128, .f32⟩ : BufTy).Contents (Elt F) → (⟨S100000x128, .f32⟩ : BufTy).Contents (Elt F) → (⟨S100000x128, .f32⟩ : BufTy).Contents (Elt F)),
    StableHlo.nullary main_c_2 (constantI S_ 32 0#32),
    StableHlo.unary main_c_2 main_v27 (broadcastInDim S1600000 ![] bcast_S_S1600000 : (⟨S_, .i32⟩ : BufTy).Contents (Elt F) → (⟨S1600000, .i32⟩ : BufTy).Contents (Elt F)),
    StableHlo.binary main_arg1 main_v27 main_v28 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v29 (broadcastInDim S1600000 ![] bcast_S_S1600000 : (⟨S_, .i32⟩ : BufTy).Contents (Elt F) → (⟨S1600000, .i32⟩ : BufTy).Contents (Elt F)),
    StableHlo.binary main_arg1 main_v29 main_v30 (addi : (⟨S1600000, .i32⟩ : BufTy).Contents (Elt F) → (⟨S1600000, .i32⟩ : BufTy).Contents (Elt F) → (⟨S1600000, .i32⟩ : BufTy).Contents (Elt F)),
    StableHlo.ternary main_v28 main_v30 main_arg1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v31 main_v32 (broadcastInDim S1600000x1 ![0] bcast_S1600000_S1600000x1_0 : (⟨S1600000, .i32⟩ : BufTy).Contents (Elt F) → (⟨S1600000x1, .i32⟩ : BufTy).Contents (Elt F)),
    StableHlo.binary main_v22 main_v32 main_v33 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_arg3 main_v34 (broadcastInDim S1600000x1 ![0] bcast_S1600000_S1600000x1_0 : (⟨S1600000, .f32⟩ : BufTy).Contents (Elt F) → (⟨S1600000x1, .f32⟩ : BufTy).Contents (Elt F)),
    StableHlo.unary main_v34 main_v35 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v33 main_v35 main_v36 (mulf : (⟨S1600000x128, .f32⟩ : BufTy).Contents (Elt F) → (⟨S1600000x128, .f32⟩ : BufTy).Contents (Elt F) → (⟨S1600000x128, .f32⟩ : BufTy).Contents (Elt F)),
    StableHlo.nullary main_cst_4 (constant S_ .f32 0x00000000#32),
    StableHlo.unary main_cst_4 main_v37 (broadcastInDim S100000x128 ![] bcast_S_S100000x128 : (⟨S_, .f32⟩ : BufTy).Contents (Elt F) → (⟨S100000x128, .f32⟩ : BufTy).Contents (Elt F)),
    StableHlo.unary main_arg2 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_c_5 (constantI S_ 32 0#32),
    StableHlo.unary main_c_5 main_v40 (broadcastInDim S1600000 ![] bcast_S_S1600000 : (⟨S_, .i32⟩ : BufTy).Contents (Elt F) → (⟨S1600000, .i32⟩ : BufTy).Contents (Elt F)),
    StableHlo.binary main_arg2 main_v40 main_v41 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v42 (broadcastInDim S1600000 ![] bcast_S_S1600000 : (⟨S_, .i32⟩ : BufTy).Contents (Elt F) → (⟨S1600000, .i32⟩ : BufTy).Contents (Elt F)),
    StableHlo.binary main_arg2 main_v42 main_v43 (addi : (⟨S1600000, .i32⟩ : BufTy).Contents (Elt F) → (⟨S1600000, .i32⟩ : BufTy).Contents (Elt F) → (⟨S1600000, .i32⟩ : BufTy).Contents (Elt F)),
    StableHlo.ternary main_v41 main_v43 main_arg2 main_v44 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v44 main_v45 (broadcastInDim S1600000x1 ![0] bcast_S1600000_S1600000x1_0 : (⟨S1600000, .i32⟩ : BufTy).Contents (Elt F) → (⟨S1600000x1, .i32⟩ : BufTy).Contents (Elt F)),
    StableHlo.binary main_v26 main_v45 main_v46 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_arg4 main_v47 (broadcastInDim S1600000x1 ![0] bcast_S1600000_S1600000x1_0 : (⟨S1600000, .f32⟩ : BufTy).Contents (Elt F) → (⟨S1600000x1, .f32⟩ : BufTy).Contents (Elt F)),
    StableHlo.unary main_v47 main_v48 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v46 main_v48 main_v49 (mulf : (⟨S1600000x128, .f32⟩ : BufTy).Contents (Elt F) → (⟨S1600000x128, .f32⟩ : BufTy).Contents (Elt F) → (⟨S1600000x128, .f32⟩ : BufTy).Contents (Elt F)),
    StableHlo.nullary main_cst_7 (constant S_ .f32 0x00000000#32),
    StableHlo.unary main_cst_7 main_v50 (broadcastInDim S100000x128 ![] bcast_S_S100000x128 : (⟨S_, .f32⟩ : BufTy).Contents (Elt F) → (⟨S100000x128, .f32⟩ : BufTy).Contents (Elt F)),
    StableHlo.unary main_arg1 main_v51 (broadcastInDim S1600000x1 ![0] bcast_S1600000_S1600000x1_0 : (⟨S1600000, .i32⟩ : BufTy).Contents (Elt F) → (⟨S1600000x1, .i32⟩ : BufTy).Contents (Elt F)),
    StableHlo.ternary main_v50 main_v51 main_v49 main_v52 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

private abbrev opsC : List (HloOp τ sig (Elt F)) :=
  [ StableHlo.binary main_v39 main_v52 main_v53 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.binary main_v53 main_arg11 main_v54 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.unary main_arg12 main_v55 (broadcastInDim S1x256 ![1] bcast_S256_S1x256_1 : (⟨S256, .f32⟩ : BufTy).Contents (Elt F) → (⟨S1x256, .f32⟩ : BufTy).Contents (Elt F)),
    StableHlo.unary main_v55 main_v56 (broadcastInDim S100000x256 ![0, 1] bcast_S1x256_S100000x256_0_1 : (⟨S1x256, .f32⟩ : BufTy).Contents (Elt F) → (⟨S100000x256, .f32⟩ : BufTy).Contents (Elt F)),
    StableHlo.binary main_v54 main_v56 main_v57 (addf : (⟨S100000x256, .f32⟩ : BufTy).Contents (Elt F) → (⟨S100000x256, .f32⟩ : BufTy).Contents (Elt F) → (⟨S100000x256, .f32⟩ : BufTy).Contents (Elt F)),
    StableHlo.unary main_v57 main_v58 ((extractStridedSlice S100000x128 ![0, 0] · slices_S100000x256_S100000x128_0_0) : (⟨S100000x256, .f32⟩ : BufTy).Contents (Elt F) → (⟨S100000x128, .f32⟩ : BufTy).Contents (Elt F)),
    StableHlo.unary main_v57 main_v59 ((extractStridedSlice S100000x128 ![0, 128] · slices_S100000x256_S100000x128_0_128) : (⟨S100000x256, .f32⟩ : BufTy).Contents (Elt F) → (⟨S100000x128, .f32⟩ : BufTy).Contents (Elt F)),
    StableHlo.binary main_v18 main_arg13 main_v60 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.unary main_v60 main_v61 ((extractStridedSlice S100000x128 ![0, 0] · slices_S100000x256_S100000x128_0_0) : (⟨S100000x256, .f32⟩ : BufTy).Contents (Elt F) → (⟨S100000x128, .f32⟩ : BufTy).Contents (Elt F)),
    StableHlo.unary main_v60 main_v62 ((extractStridedSlice S100000x128 ![0, 128] · slices_S100000x256_S100000x128_0_128) : (⟨S100000x256, .f32⟩ : BufTy).Contents (Elt F) → (⟨S100000x128, .f32⟩ : BufTy).Contents (Elt F)),
    StableHlo.binary main_v58 main_v61 main_v63 (addf : (⟨S100000x128, .f32⟩ : BufTy).Contents (Elt F) → (⟨S100000x128, .f32⟩ : BufTy).Contents (Elt F) → (⟨S100000x128, .f32⟩ : BufTy).Contents (Elt F)),
    StableHlo.unary main_v63 main_v64 (Host.negf : (⟨S100000x128, .f32⟩ : BufTy).Contents (Elt F) → (⟨S100000x128, .f32⟩ : BufTy).Contents (Elt F)),
    StableHlo.unary main_v64 main_v65 (Host.exp : (⟨S100000x128, .f32⟩ : BufTy).Contents (Elt F) → (⟨S100000x128, .f32⟩ : BufTy).Contents (Elt F)),
    StableHlo.nullary main_cst_8 (constant S_ .f32 0x3F800000#32),
    StableHlo.unary main_cst_8 main_v66 (broadcastInDim S100000x128 ![] bcast_S_S100000x128 : (⟨S_, .f32⟩ : BufTy).Contents (Elt F) → (⟨S100000x128, .f32⟩ : BufTy).Contents (Elt F)),
    StableHlo.binary main_v66 main_v65 main_v67 (addf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x3F800000#32),
    StableHlo.unary main_cst_9 main_v68 (broadcastInDim S100000x128 ![] bcast_S_S100000x128 : (⟨S_, .f32⟩ : BufTy).Contents (Elt F) → (⟨S100000x128, .f32⟩ : BufTy).Contents (Elt F)),
    StableHlo.binary main_v68 main_v67 main_v69 (Host.divf : (⟨S100000x128, .f32⟩ : BufTy).Contents (Elt F) → (⟨S100000x128, .f32⟩ : BufTy).Contents (Elt F) → (⟨S100000x128, .f32⟩ : BufTy).Contents (Elt F)),
    StableHlo.binary main_v59 main_v62 main_v70 (addf : (⟨S100000x128, .f32⟩ : BufTy).Contents (Elt F) → (⟨S100000x128, .f32⟩ : BufTy).Contents (Elt F) → (⟨S100000x128, .f32⟩ : BufTy).Contents (Elt F)),
    StableHlo.unary main_v70 main_v71 (Host.tanh : (⟨S100000x128, .f32⟩ : BufTy).Contents (Elt F) → (⟨S100000x128, .f32⟩ : BufTy).Contents (Elt F)),
    StableHlo.binary main_v18 main_v71 main_v72 (subf : (⟨S100000x128, .f32⟩ : BufTy).Contents (Elt F) → (⟨S100000x128, .f32⟩ : BufTy).Contents (Elt F) → (⟨S100000x128, .f32⟩ : BufTy).Contents (Elt F)),
    StableHlo.binary main_v69 main_v72 main_v73 (mulf : (⟨S100000x128, .f32⟩ : BufTy).Contents (Elt F) → (⟨S100000x128, .f32⟩ : BufTy).Contents (Elt F) → (⟨S100000x128, .f32⟩ : BufTy).Contents (Elt F)),
    StableHlo.binary main_v71 main_v73 main_v74 (addf : (⟨S100000x128, .f32⟩ : BufTy).Contents (Elt F) → (⟨S100000x128, .f32⟩ : BufTy).Contents (Elt F) → (⟨S100000x128, .f32⟩ : BufTy).Contents (Elt F)) ]

private abbrev ops : List (HloOp τ sig (Elt F)) := opsA ++ (opsB ++ opsC)

set_option maxRecDepth 8192 in
set_option maxHeartbeats 4000000 in
private theorem main_eq (c : Dev nD) : main (F := F) c = seq ops := rfl

private theorem scopedRefs_eq : (Finset.univ.filter fun b : Ref sig .tc => b.isScoped) = ∅ := by decide
private theorem scopedSems_eq : (Finset.univ.filter fun sm : SemLoc sig => sm.isScoped .tc) = ∅ := by decide

set_option maxRecDepth 8192 in
private theorem opsA_sub : (opsA : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
private theorem opsB_sub : (opsB : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
set_option maxRecDepth 8192 in
private theorem opsC_sub : (opsC : List (HloOp τ sig (Elt F))).Forall fun op => op.bufs ⊆ tcRefs τ sig :=
  ⟨binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., binary_bufs_sub .., binary_bufs_sub ..⟩

private theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp opsA_sub op h, List.forall_iff_forall_mem.mp opsB_sub op h, List.forall_iff_forall_mem.mp opsC_sub op h]

/-- The contents after two lists run one after the other. -/
private theorem after_append' : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append' l₁ l₂]

/-- The buffers the operations of `opsA` write. -/
private abbrev opsA_W : List (Ref sig .tc) := [main_cst, main_v0, main_cst_0, main_v1, main_v2, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v3, main_v4, main_v5, main_v6, main_cst_1, main_v7, main_v8, main_v9, main_v10, main_v11, main_v12, main_v13, main_v14, main_v15, main_v16, main_v17, main_v18]
set_option maxRecDepth 8192 in
private theorem opsA_writes : (opsA : List (HloOp τ sig (Elt F))).Forall fun op => op.writes ⊆ (opsA_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `opsA` does not write keeps its contents through it. -/
private theorem opsA_keep (W : Valuation τ sig (Elt F)) (r : Ref sig .tc) (h : r ∉ opsA_W) :
    after opsA W (Proc.devRef .tc r) = W (Proc.devRef .tc r) :=
  after_of_writes_sub opsA W opsA_writes h

/-- The buffers the operations of `opsB` write. -/
private abbrev opsB_W : List (Ref sig .tc) := [main_v19, main_v20, main_v21, main_v22, main_v23, main_v24, main_v25, main_v26, main_c_2, main_v27, main_v28, main_c_3, main_v29, main_v30, main_v31, main_v32, main_v33, main_v34, main_v35, main_v36, main_cst_4, main_v37, main_v38, main_v39, main_c_5, main_v40, main_v41, main_c_6, main_v42, main_v43, main_v44, main_v45, main_v46, main_v47, main_v48, main_v49, main_cst_7, main_v50, main_v51, main_v52]
set_option maxRecDepth 8192 in
private theorem opsB_writes : (opsB : List (HloOp τ sig (Elt F))).Forall fun op => op.writes ⊆ (opsB_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `opsB` does not write keeps its contents through it. -/
private theorem opsB_keep (W : Valuation τ sig (Elt F)) (r : Ref sig .tc) (h : r ∉ opsB_W) :
    after opsB W (Proc.devRef .tc r) = W (Proc.devRef .tc r) :=
  after_of_writes_sub opsB W opsB_writes h

/-- The buffers the operations of `opsC` write. -/
private abbrev opsC_W : List (Ref sig .tc) := [main_v53, main_v54, main_v55, main_v56, main_v57, main_v58, main_v59, main_v60, main_v61, main_v62, main_v63, main_v64, main_v65, main_cst_8, main_v66, main_v67, main_cst_9, main_v68, main_v69, main_v70, main_v71, main_v72, main_v73, main_v74]
set_option maxRecDepth 8192 in
private theorem opsC_writes : (opsC : List (HloOp τ sig (Elt F))).Forall fun op => op.writes ⊆ (opsC_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `opsC` does not write keeps its contents through it. -/
private theorem opsC_keep (W : Valuation τ sig (Elt F)) (r : Ref sig .tc) (h : r ∉ opsC_W) :
    after opsC W (Proc.devRef .tc r) = W (Proc.devRef .tc r) :=
  after_of_writes_sub opsC W opsC_writes h

/-- A buffer no operation writes keeps its contents through the whole program. -/
private theorem ops_keep (V : Valuation τ sig (Elt F)) (r : Ref sig .tc) (hA : r ∉ opsA_W) (hB : r ∉ opsB_W) (hC : r ∉ opsC_W) :
    after ops V (Proc.devRef .tc r) = V (Proc.devRef .tc r) := by
  rw [show (ops : List (HloOp τ sig (Elt F))) = opsA ++ (opsB ++ opsC) from rfl, after_append', after_append', opsC_keep _ r hC, opsB_keep _ r hB, opsA_keep _ r hA]

set_option maxRecDepth 8192 in
set_option maxHeartbeats 4000000 in
/-- The first stretch leaves the normalised rows in main_v18. -/
private theorem afterA_v18 (W : Valuation τ sig (Elt Ideal)) :
    after (opsA (F := Ideal)) W (Proc.devRef .tc main_v18)
      = Term.normed (W (Proc.devRef .tc main_arg0)) (W (Proc.devRef .tc main_arg5)) (W (Proc.devRef .tc main_arg6)) := by
  after_results_simp
  rfl

set_option maxRecDepth 8192 in
set_option maxHeartbeats 4000000 in
/-- The second stretch leaves the aggregate of the first projection in main_v39. -/
private theorem afterB_v39 (W : Valuation τ sig (Elt Ideal)) :
    after (opsB (F := Ideal)) W (Proc.devRef .tc main_v39)
      = Term.agg (Term.proj (W (Proc.devRef .tc main_v18)) (W (Proc.devRef .tc main_arg7)) (W (Proc.devRef .tc main_arg8)))
          (W (Proc.devRef .tc main_arg1)) (W (Proc.devRef .tc main_arg3)) (W (Proc.devRef .tc main_arg2)) := by
  after_results_simp
  rfl

set_option maxRecDepth 8192 in
set_option maxHeartbeats 4000000 in
/-- The second stretch leaves the aggregate of the second projection in main_v52. -/
private theorem afterB_v52 (W : Valuation τ sig (Elt Ideal)) :
    after (opsB (F := Ideal)) W (Proc.devRef .tc main_v52)
      = Term.agg (Term.proj (W (Proc.devRef .tc main_v18)) (W (Proc.devRef .tc main_arg9)) (W (Proc.devRef .tc main_arg10)))
          (W (Proc.devRef .tc main_arg2)) (W (Proc.devRef .tc main_arg4)) (W (Proc.devRef .tc main_arg1)) := by
  after_results_simp
  rfl

set_option maxRecDepth 8192 in
set_option maxHeartbeats 4000000 in
/-- The last stretch leaves the gated update in main_v74. -/
private theorem afterC_v74 (W : Valuation τ sig (Elt Ideal)) :
    after (opsC (F := Ideal)) W (Proc.devRef .tc main_v74)
      = Term.gated (W (Proc.devRef .tc main_v18)) (W (Proc.devRef .tc main_v39)) (W (Proc.devRef .tc main_v52))
          (W (Proc.devRef .tc main_arg11)) (W (Proc.devRef .tc main_arg12)) (W (Proc.devRef .tc main_arg13)) := by
  after_results_simp
  rfl

/-- The whole program leaves the composed stages in main_v74. -/
private theorem after_ops_v74 (V : Valuation τ sig (Elt Ideal)) :
    after (ops (F := Ideal)) V (Proc.devRef .tc main_v74)
      = Term.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [show (ops : List (HloOp τ sig (Elt Ideal))) = opsA ++ (opsB ++ opsC) from rfl, after_append', after_append', afterC_v74,
    opsB_keep _ main_v18 (by decide), afterB_v39, afterB_v52,
    opsB_keep _ main_arg11 (by decide), opsB_keep _ main_arg12 (by decide), opsB_keep _ main_arg13 (by decide),
    afterA_v18,
    opsA_keep _ main_arg1 (by decide), opsA_keep _ main_arg2 (by decide), opsA_keep _ main_arg3 (by decide), opsA_keep _ main_arg4 (by decide), opsA_keep _ main_arg7 (by decide), opsA_keep _ main_arg8 (by decide), opsA_keep _ main_arg9 (by decide), opsA_keep _ main_arg10 (by decide), opsA_keep _ main_arg11 (by decide), opsA_keep _ main_arg12 (by decide), opsA_keep _ main_arg13 (by decide)]
  rfl

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v74) = Term.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v74).trans (after_ops_v74 (launchContents m c)),
      (h c main_arg0).trans (ops_keep (launchContents m c) main_arg0 (by decide) (by decide) (by decide)),
      (h c main_arg1).trans (ops_keep (launchContents m c) main_arg1 (by decide) (by decide) (by decide)),
      (h c main_arg2).trans (ops_keep (launchContents m c) main_arg2 (by decide) (by decide) (by decide)),
      (h c main_arg3).trans (ops_keep (launchContents m c) main_arg3 (by decide) (by decide) (by decide)),
      (h c main_arg4).trans (ops_keep (launchContents m c) main_arg4 (by decide) (by decide) (by decide)),
      (h c main_arg5).trans (ops_keep (launchContents m c) main_arg5 (by decide) (by decide) (by decide)),
      (h c main_arg6).trans (ops_keep (launchContents m c) main_arg6 (by decide) (by decide) (by decide)),
      (h c main_arg7).trans (ops_keep (launchContents m c) main_arg7 (by decide) (by decide) (by decide)),
      (h c main_arg8).trans (ops_keep (launchContents m c) main_arg8 (by decide) (by decide) (by decide)),
      (h c main_arg9).trans (ops_keep (launchContents m c) main_arg9 (by decide) (by decide) (by decide)),
      (h c main_arg10).trans (ops_keep (launchContents m c) main_arg10 (by decide) (by decide) (by decide)),
      (h c main_arg11).trans (ops_keep (launchContents m c) main_arg11 (by decide) (by decide) (by decide)),
      (h c main_arg12).trans (ops_keep (launchContents m c) main_arg12 (by decide) (by decide) (by decide)),
      (h c main_arg13).trans (ops_keep (launchContents m c) main_arg13 (by decide) (by decide) (by decide))⟩)
    (run_seq scopedRefs_eq scopedSems_eq defs main (fun _ => ops) main_eq (fun _ => ops_sub) m ρ)

end Cert.ReferenceIdeal.RefRun

end
-- ==== Proof.HostK.lean ====
/-
  What each of the kernel program's two regions finds in its input arrays, in terms of the launch arguments.
  Before the first region the host has computed the column mean and variance of the features, the reciprocal
  deviation r, the scale row g·r and the shift row beta − (mean·g)·r, and has laid the three bias vectors out as one-row
  arrays. Between the regions it aggregates the two projections over the edges. The stages are the reference's own
  (same operations on the same arguments), so they are named by the reference's terms and never opened here.
  First each stretch of host operations is read from an arbitrary starting contents; then the stretches are chained
  from the launch memory.
-/
import proofs.«135574_j25091198943527_1_alg».proof.Proof.Gen.KernelIdeal.Frame
import proofs.«135574_j25091198943527_1_alg».proof.Proof.RefTerm
import Idealize.ShloMosaic.Lib.StableHlo.Run

set_option maxRecDepth 16384

noncomputable section

namespace Cert.KernelIdeal.HostK

open Cert.KernelIdeal Cert.KernelIdeal.Gen Cert.ReferenceIdeal.Term
open Idealize.ShloMosaic Idealize.ShloMosaic.TcCoe Idealize.SL.Sem Idealize.ShloMosaic.StableHlo

/-- No operation of the stretch writes the buffer: decided reference by reference. -/
macro "not_written" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## Each stretch from arbitrary contents -/

section Stretches

variable (V : Valuation τ sig (Elt Ideal))

/-- The first stretch leaves the column mean of whatever the feature buffer holds. -/
theorem mean_of : StableHlo.after (hostOps0 (F := Ideal)) V (Proc.devRef .tc main_v2) = colMean (V (Proc.devRef .tc main_arg0)) := by
  after_results_simp
  rfl

/-- … and the integer zero the variance takes as its correction. -/
theorem zero_of : StableHlo.after (hostOps0 (F := Ideal)) V (Proc.devRef .tc main_c) = constantI S_ 32 0#32 := by
  after_results_simp

/-- The second stretch leaves the column variance. -/
theorem var_of (hc : V (Proc.devRef .tc main_c) = constantI S_ 32 0#32) :
    StableHlo.after (hostOps0_1 (F := Ideal)) V (Proc.devRef .tc main_v3) = colVar (V (Proc.devRef .tc main_arg0)) := by
  after_results_simp
  rw [hc]
  rfl

/-- The third stretch: the scale row g · r. -/
theorem scale_of (feat : FVec Ideal S100000x128 .f32) (hv : V (Proc.devRef .tc main_v3) = colVar feat) :
    StableHlo.after (hostOps0_2 (F := Ideal)) V (Proc.devRef .tc main_v8)
      = shapeCast S1x128 (mulf (V (Proc.devRef .tc main_arg5)) (invStd feat)) Facts₀.shapeCasts_S128_S1x128 := by
  after_results_simp
  rw [hv]
  rfl

/-- … the shift row beta − (mean · g) · r. -/
theorem shift_of (feat : FVec Ideal S100000x128 .f32) (hv : V (Proc.devRef .tc main_v3) = colVar feat)
    (hm : V (Proc.devRef .tc main_v2) = colMean feat) :
    StableHlo.after (hostOps0_2 (F := Ideal)) V (Proc.devRef .tc main_v12)
      = shapeCast S1x128 (subf (V (Proc.devRef .tc main_arg6)) (mulf (mulf (colMean feat) (V (Proc.devRef .tc main_arg5))) (invStd feat)))
          Facts₀.shapeCasts_S128_S1x128 := by
  after_results_simp
  rw [hv, hm]
  rfl

/-- … and the three bias vectors as one-row arrays. -/
theorem bin_of : StableHlo.after (hostOps0_2 (F := Ideal)) V (Proc.devRef .tc main_v13)
      = shapeCast S1x128 (V (Proc.devRef .tc main_arg8)) Facts₀.shapeCasts_S128_S1x128 := by
  after_results_simp
  rfl

theorem bout_of : StableHlo.after (hostOps0_2 (F := Ideal)) V (Proc.devRef .tc main_v14)
      = shapeCast S1x128 (V (Proc.devRef .tc main_arg10)) Facts₀.shapeCasts_S128_S1x128 := by
  after_results_simp
  rfl

theorem bg_of : StableHlo.after (hostOps0_2 (F := Ideal)) V (Proc.devRef .tc main_v15)
      = shapeCast S1x256 (V (Proc.devRef .tc main_arg12)) Facts₀.shapeCasts_S256_S1x256 := by
  after_results_simp
  rfl

/-- The stretch between the regions: the first projection gathered at the edges' sources, weighted, summed at their
    destinations. -/
theorem ain_of : StableHlo.after (hostOps1 (F := Ideal)) V (Proc.devRef .tc main_v29)
      = agg (V (Proc.devRef .tc main_v16_1)) (V (Proc.devRef .tc main_arg1)) (V (Proc.devRef .tc main_arg3)) (V (Proc.devRef .tc main_arg2)) := by
  after_results_simp
  rfl

/-- … and the second projection gathered at the destinations, weighted, summed at the sources. -/
theorem aout_of : StableHlo.after (hostOps1 (F := Ideal)) V (Proc.devRef .tc main_v42)
      = agg (V (Proc.devRef .tc main_v16_2)) (V (Proc.devRef .tc main_arg2)) (V (Proc.devRef .tc main_arg4)) (V (Proc.devRef .tc main_arg1)) := by
  after_results_simp
  rfl

end Stretches

/-! ## From the launch memory to each region's entry -/

variable (m : (ℓ : Loc nD τ sig) → Buf (Elt Ideal) ℓ) (ρ : Dev nD → PrngReg)

theorem W1_mean (c : Dev nD) : W1 m ρ c (Proc.devRef .tc main_v2) = colMean (m ((c : Thread nD τ).loc main_arg0)) := mean_of (W0 m ρ c)

theorem W1_zero (c : Dev nD) : W1 m ρ c (Proc.devRef .tc main_c) = constantI S_ 32 0#32 := zero_of (W0 m ρ c)

theorem W1_feat (c : Dev nD) : W1 m ρ c (Proc.devRef .tc main_arg0) = m ((c : Thread nD τ).loc main_arg0) :=
  (StableHlo.after_of_forall_not_mem (b := Proc.devRef .tc main_arg0) _ _ (by not_written hostOps0))

theorem W2_var (c : Dev nD) : W2 m ρ c (Proc.devRef .tc main_v3) = colVar (m ((c : Thread nD τ).loc main_arg0)) :=
  (var_of (W1 m ρ c) (W1_zero m ρ c)).trans (congrArg colVar (W1_feat m ρ c))

theorem W2_mean (c : Dev nD) : W2 m ρ c (Proc.devRef .tc main_v2) = colMean (m ((c : Thread nD τ).loc main_arg0)) :=
  (StableHlo.after_of_forall_not_mem (b := Proc.devRef .tc main_v2) _ _ (by not_written hostOps0_1)).trans (W1_mean m ρ c)

theorem W2_arg5 (c : Dev nD) : W2 m ρ c (Proc.devRef .tc main_arg5) = m ((c : Thread nD τ).loc main_arg5) :=
  (StableHlo.after_of_forall_not_mem (b := Proc.devRef .tc main_arg5) _ _ (by not_written hostOps0_1)).trans (StableHlo.after_of_forall_not_mem (b := Proc.devRef .tc main_arg5) _ _ (by not_written hostOps0))

theorem W2_arg6 (c : Dev nD) : W2 m ρ c (Proc.devRef .tc main_arg6) = m ((c : Thread nD τ).loc main_arg6) :=
  (StableHlo.after_of_forall_not_mem (b := Proc.devRef .tc main_arg6) _ _ (by not_written hostOps0_1)).trans (StableHlo.after_of_forall_not_mem (b := Proc.devRef .tc main_arg6) _ _ (by not_written hostOps0))

theorem W2_arg8 (c : Dev nD) : W2 m ρ c (Proc.devRef .tc main_arg8) = m ((c : Thread nD τ).loc main_arg8) :=
  (StableHlo.after_of_forall_not_mem (b := Proc.devRef .tc main_arg8) _ _ (by not_written hostOps0_1)).trans (StableHlo.after_of_forall_not_mem (b := Proc.devRef .tc main_arg8) _ _ (by not_written hostOps0))

theorem W2_arg10 (c : Dev nD) : W2 m ρ c (Proc.devRef .tc main_arg10) = m ((c : Thread nD τ).loc main_arg10) :=
  (StableHlo.after_of_forall_not_mem (b := Proc.devRef .tc main_arg10) _ _ (by not_written hostOps0_1)).trans (StableHlo.after_of_forall_not_mem (b := Proc.devRef .tc main_arg10) _ _ (by not_written hostOps0))

theorem W2_arg12 (c : Dev nD) : W2 m ρ c (Proc.devRef .tc main_arg12) = m ((c : Thread nD τ).loc main_arg12) :=
  (StableHlo.after_of_forall_not_mem (b := Proc.devRef .tc main_arg12) _ _ (by not_written hostOps0_1)).trans (StableHlo.after_of_forall_not_mem (b := Proc.devRef .tc main_arg12) _ _ (by not_written hostOps0))

theorem W3_arg0 (c : Dev nD) : W3 m ρ c (Proc.devRef .tc main_arg0) = m ((c : Thread nD τ).loc main_arg0) :=
  (StableHlo.after_of_forall_not_mem (b := Proc.devRef .tc main_arg0) _ _ (by not_written hostOps0_2)).trans ((StableHlo.after_of_forall_not_mem (b := Proc.devRef .tc main_arg0) _ _ (by not_written hostOps0_1)).trans (StableHlo.after_of_forall_not_mem (b := Proc.devRef .tc main_arg0) _ _ (by not_written hostOps0)))

theorem W3_arg1 (c : Dev nD) : W3 m ρ c (Proc.devRef .tc main_arg1) = m ((c : Thread nD τ).loc main_arg1) :=
  (StableHlo.after_of_forall_not_mem (b := Proc.devRef .tc main_arg1) _ _ (by not_written hostOps0_2)).trans ((StableHlo.after_of_forall_not_mem (b := Proc.devRef .tc main_arg1) _ _ (by not_written hostOps0_1)).trans (StableHlo.after_of_forall_not_mem (b := Proc.devRef .tc main_arg1) _ _ (by not_written hostOps0)))

theorem W3_arg2 (c : Dev nD) : W3 m ρ c (Proc.devRef .tc main_arg2) = m ((c : Thread nD τ).loc main_arg2) :=
  (StableHlo.after_of_forall_not_mem (b := Proc.devRef .tc main_arg2) _ _ (by not_written hostOps0_2)).trans ((StableHlo.after_of_forall_not_mem (b := Proc.devRef .tc main_arg2) _ _ (by not_written hostOps0_1)).trans (StableHlo.after_of_forall_not_mem (b := Proc.devRef .tc main_arg2) _ _ (by not_written hostOps0)))

theorem W3_arg3 (c : Dev nD) : W3 m ρ c (Proc.devRef .tc main_arg3) = m ((c : Thread nD τ).loc main_arg3) :=
  (StableHlo.after_of_forall_not_mem (b := Proc.devRef .tc main_arg3) _ _ (by not_written hostOps0_2)).trans ((StableHlo.after_of_forall_not_mem (b := Proc.devRef .tc main_arg3) _ _ (by not_written hostOps0_1)).trans (StableHlo.after_of_forall_not_mem (b := Proc.devRef .tc main_arg3) _ _ (by not_written hostOps0)))

theorem W3_arg4 (c : Dev nD) : W3 m ρ c (Proc.devRef .tc main_arg4) = m ((c : Thread nD τ).loc main_arg4) :=
  (StableHlo.after_of_forall_not_mem (b := Proc.devRef .tc main_arg4) _ _ (by not_written hostOps0_2)).trans ((StableHlo.after_of_forall_not_mem (b := Proc.devRef .tc main_arg4) _ _ (by not_written hostOps0_1)).trans (StableHlo.after_of_forall_not_mem (b := Proc.devRef .tc main_arg4) _ _ (by not_written hostOps0)))

theorem W3_arg7 (c : Dev nD) : W3 m ρ c (Proc.devRef .tc main_arg7) = m ((c : Thread nD τ).loc main_arg7) :=
  (StableHlo.after_of_forall_not_mem (b := Proc.devRef .tc main_arg7) _ _ (by not_written hostOps0_2)).trans ((StableHlo.after_of_forall_not_mem (b := Proc.devRef .tc main_arg7) _ _ (by not_written hostOps0_1)).trans (StableHlo.after_of_forall_not_mem (b := Proc.devRef .tc main_arg7) _ _ (by not_written hostOps0)))

theorem W3_arg9 (c : Dev nD) : W3 m ρ c (Proc.devRef .tc main_arg9) = m ((c : Thread nD τ).loc main_arg9) :=
  (StableHlo.after_of_forall_not_mem (b := Proc.devRef .tc main_arg9) _ _ (by not_written hostOps0_2)).trans ((StableHlo.after_of_forall_not_mem (b := Proc.devRef .tc main_arg9) _ _ (by not_written hostOps0_1)).trans (StableHlo.after_of_forall_not_mem (b := Proc.devRef .tc main_arg9) _ _ (by not_written hostOps0)))

theorem W3_arg11 (c : Dev nD) : W3 m ρ c (Proc.devRef .tc main_arg11) = m ((c : Thread nD τ).loc main_arg11) :=
  (StableHlo.after_of_forall_not_mem (b := Proc.devRef .tc main_arg11) _ _ (by not_written hostOps0_2)).trans ((StableHlo.after_of_forall_not_mem (b := Proc.devRef .tc main_arg11) _ _ (by not_written hostOps0_1)).trans (StableHlo.after_of_forall_not_mem (b := Proc.devRef .tc main_arg11) _ _ (by not_written hostOps0)))

theorem W3_arg13 (c : Dev nD) : W3 m ρ c (Proc.devRef .tc main_arg13) = m ((c : Thread nD τ).loc main_arg13) :=
  (StableHlo.after_of_forall_not_mem (b := Proc.devRef .tc main_arg13) _ _ (by not_written hostOps0_2)).trans ((StableHlo.after_of_forall_not_mem (b := Proc.devRef .tc main_arg13) _ _ (by not_written hostOps0_1)).trans (StableHlo.after_of_forall_not_mem (b := Proc.devRef .tc main_arg13) _ _ (by not_written hostOps0)))

/-- The scale row at the first region's entry. -/
theorem W3_scale (c : Dev nD) :
    W3 m ρ c (Proc.devRef .tc main_v8)
      = shapeCast S1x128 (mulf (m ((c : Thread nD τ).loc main_arg5)) (invStd (m ((c : Thread nD τ).loc main_arg0)))) Facts₀.shapeCasts_S128_S1x128 := by
  have h := scale_of (W2 m ρ c) (m ((c : Thread nD τ).loc main_arg0)) (W2_var m ρ c)
  rw [W2_arg5 m ρ c] at h
  exact h

/-- The shift row at the first region's entry. -/
theorem W3_shift (c : Dev nD) :
    W3 m ρ c (Proc.devRef .tc main_v12)
      = shapeCast S1x128 (subf (m ((c : Thread nD τ).loc main_arg6)) (mulf (mulf (colMean (m ((c : Thread nD τ).loc main_arg0))) (m ((c : Thread nD τ).loc main_arg5))) (invStd (m ((c : Thread nD τ).loc main_arg0)))))
          Facts₀.shapeCasts_S128_S1x128 := by
  have h := shift_of (W2 m ρ c) (m ((c : Thread nD τ).loc main_arg0)) (W2_var m ρ c) (W2_mean m ρ c)
  rw [W2_arg5 m ρ c, W2_arg6 m ρ c] at h
  exact h

theorem W3_bin (c : Dev nD) :
    W3 m ρ c (Proc.devRef .tc main_v13) = shapeCast S1x128 (m ((c : Thread nD τ).loc main_arg8)) Facts₀.shapeCasts_S128_S1x128 := by
  have h := bin_of (W2 m ρ c)
  rw [W2_arg8 m ρ c] at h
  exact h

theorem W3_bout (c : Dev nD) :
    W3 m ρ c (Proc.devRef .tc main_v14) = shapeCast S1x128 (m ((c : Thread nD τ).loc main_arg10)) Facts₀.shapeCasts_S128_S1x128 := by
  have h := bout_of (W2 m ρ c)
  rw [W2_arg10 m ρ c] at h
  exact h

theorem W3_bg (c : Dev nD) :
    W3 m ρ c (Proc.devRef .tc main_v15) = shapeCast S1x256 (m ((c : Thread nD τ).loc main_arg12)) Facts₀.shapeCasts_S256_S1x256 := by
  have h := bg_of (W2 m ρ c)
  rw [W2_arg12 m ρ c] at h
  exact h

/-! ## Between the regions -/

theorem W4_arg1 (c : Dev nD) : W4 m ρ c (Proc.devRef .tc main_arg1) = m ((c : Thread nD τ).loc main_arg1) :=
  (W4_of_ne m ρ c main_arg1 (by decide)).trans (W3_arg1 m ρ c)

theorem W4_arg2 (c : Dev nD) : W4 m ρ c (Proc.devRef .tc main_arg2) = m ((c : Thread nD τ).loc main_arg2) :=
  (W4_of_ne m ρ c main_arg2 (by decide)).trans (W3_arg2 m ρ c)

theorem W4_arg3 (c : Dev nD) : W4 m ρ c (Proc.devRef .tc main_arg3) = m ((c : Thread nD τ).loc main_arg3) :=
  (W4_of_ne m ρ c main_arg3 (by decide)).trans (W3_arg3 m ρ c)

theorem W4_arg4 (c : Dev nD) : W4 m ρ c (Proc.devRef .tc main_arg4) = m ((c : Thread nD τ).loc main_arg4) :=
  (W4_of_ne m ρ c main_arg4 (by decide)).trans (W3_arg4 m ρ c)

theorem W4_arg11 (c : Dev nD) : W4 m ρ c (Proc.devRef .tc main_arg11) = m ((c : Thread nD τ).loc main_arg11) :=
  (W4_of_ne m ρ c main_arg11 (by decide)).trans (W3_arg11 m ρ c)

theorem W4_arg13 (c : Dev nD) : W4 m ρ c (Proc.devRef .tc main_arg13) = m ((c : Thread nD τ).loc main_arg13) :=
  (W4_of_ne m ρ c main_arg13 (by decide)).trans (W3_arg13 m ρ c)

theorem W4_bg (c : Dev nD) :
    W4 m ρ c (Proc.devRef .tc main_v15) = shapeCast S1x256 (m ((c : Thread nD τ).loc main_arg12)) Facts₀.shapeCasts_S256_S1x256 :=
  (W4_of_ne m ρ c main_v15 (by decide)).trans (W3_bg m ρ c)

/-- The first region's three output arrays, as the pipeline leaves them. -/
theorem W4_x (c : Dev nD) : W4 m ρ c (Proc.devRef .tc main_v16_0) = (dat0 (V3 m ρ) c).arrAt 7 cfg0.N := W4_arr m ρ c 7
theorem W4_fin (c : Dev nD) : W4 m ρ c (Proc.devRef .tc main_v16_1) = (dat0 (V3 m ρ) c).arrAt 8 cfg0.N := W4_arr m ρ c 8
theorem W4_fout (c : Dev nD) : W4 m ρ c (Proc.devRef .tc main_v16_2) = (dat0 (V3 m ρ) c).arrAt 9 cfg0.N := W4_arr m ρ c 9

/-- The aggregate of the first projection, at the second region's entry. -/
theorem W5_ain (c : Dev nD) :
    W5 m ρ c (Proc.devRef .tc main_v29)
      = agg ((dat0 (V3 m ρ) c).arrAt 8 cfg0.N) (m ((c : Thread nD τ).loc main_arg1)) (m ((c : Thread nD τ).loc main_arg3)) (m ((c : Thread nD τ).loc main_arg2)) := by
  have h := ain_of (W4 m ρ c)
  rw [W4_fin m ρ c, W4_arg1 m ρ c, W4_arg2 m ρ c, W4_arg3 m ρ c] at h
  exact h

/-- The aggregate of the second projection, at the second region's entry. -/
theorem W5_aout (c : Dev nD) :
    W5 m ρ c (Proc.devRef .tc main_v42)
      = agg ((dat0 (V3 m ρ) c).arrAt 9 cfg0.N) (m ((c : Thread nD τ).loc main_arg2)) (m ((c : Thread nD τ).loc main_arg4)) (m ((c : Thread nD τ).loc main_arg1)) := by
  have h := aout_of (W4 m ρ c)
  rw [W4_fout m ρ c, W4_arg1 m ρ c, W4_arg2 m ρ c, W4_arg4 m ρ c] at h
  exact h

theorem W5_x (c : Dev nD) : W5 m ρ c (Proc.devRef .tc main_v16_0) = (dat0 (V3 m ρ) c).arrAt 7 cfg0.N :=
  (StableHlo.after_of_forall_not_mem (b := Proc.devRef .tc main_v16_0) _ _ (by not_written hostOps1)).trans (W4_x m ρ c)

theorem W5_arg11 (c : Dev nD) : W5 m ρ c (Proc.devRef .tc main_arg11) = m ((c : Thread nD τ).loc main_arg11) :=
  (StableHlo.after_of_forall_not_mem (b := Proc.devRef .tc main_arg11) _ _ (by not_written hostOps1)).trans (W4_arg11 m ρ c)

theorem W5_arg13 (c : Dev nD) : W5 m ρ c (Proc.devRef .tc main_arg13) = m ((c : Thread nD τ).loc main_arg13) :=
  (StableHlo.after_of_forall_not_mem (b := Proc.devRef .tc main_arg13) _ _ (by not_written hostOps1)).trans (W4_arg13 m ρ c)

theorem W5_bg (c : Dev nD) :
    W5 m ρ c (Proc.devRef .tc main_v15) = shapeCast S1x256 (m ((c : Thread nD τ).loc main_arg12)) Facts₀.shapeCasts_S256_S1x256 :=
  (StableHlo.after_of_forall_not_mem (b := Proc.devRef .tc main_v15) _ _ (by not_written hostOps1)).trans (W4_bg m ρ c)

/-- The result array is the second region's output array after its last grid point. -/
theorem W6_result (c : Dev nD) : W6 m ρ c (Proc.devRef .tc main_v43) = (dat1 (V5 m ρ) c).arrAt 6 cfg1.N := W6_arr m ρ c 6

end Cert.KernelIdeal.HostK

end
-- ==== Proof.Spec.lean ====
/-
  What the two programs compute, entry by entry, over the extended reals.

  Rows are nodes (100000 of them), columns are features. The normalised features are the input rows shifted by the
  column mean and scaled by the reciprocal column deviation, the scale g and the offset beta (`normalized`); the same
  array written with the scale and offset folded into one row each is `scaleShift`. A projection is a row-by-matrix
  product plus a bias row (`affineMap`; `matProd` without the bias). The gate takes the normalised rows X and the two
  aggregated rows A_in, A_out side by side (`catCols`), forms f = [A_in | A_out]·Wg + bg and b = X·Wgo, and returns
  n + s·(X − n) with s the logistic of the left halves' sum and n the hyperbolic tangent of the right halves' sum.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array given by its entries. -/
abbrev ofEntries {n0 n1 : Nat} {α : Type} (g : Fin n0 → Fin n1 → α) : (⟨2, ![n0, n1]⟩ : Shape).Idx → α :=
  fun i => g (i 0) (i 1)

theorem ofEntries_ix2 {n0 n1 : Nat} {α : Type} (g : Fin n0 → Fin n1 → α) (a : Fin n0) (b : Fin n1) :
    ofEntries g (ix2 a b) = g a b := rfl

/-- Column q of a 128-wide half, as a column of the 256-wide array: the left half. -/
abbrev lo (q : Fin 128) : Fin 256 := ⟨q.val, Nat.lt_of_lt_of_le q.isLt (by decide)⟩
/-- Column q of the right half. -/
abbrev hi (q : Fin 128) : Fin 256 := ⟨q.val + 128, by have := q.isLt; omega⟩

/-- Entry (r, q) is A(r, q) · s(q) + h(q): every row scaled and shifted by one row each. -/
def scaleShift (A : (⟨2, ![100000, 128]⟩ : Shape).Idx → EReal) (s h : (⟨2, ![1, 128]⟩ : Shape).Idx → EReal) :
    (⟨2, ![100000, 128]⟩ : Shape).Idx → EReal :=
  ofEntries fun r q => A (ix2 r q) * s (ix2 0 q) + h (ix2 0 q)

/-- Entry (r, q) is ((A(r, q) − mu(q)) · rs(q)) · g(q) + beta(q). -/
def normalized (A : (⟨2, ![100000, 128]⟩ : Shape).Idx → EReal) (mu rs g beta : (⟨1, ![128]⟩ : Shape).Idx → EReal) :
    (⟨2, ![100000, 128]⟩ : Shape).Idx → EReal :=
  ofEntries fun r q => ((A (ix2 r q) - mu (ix1 q)) * rs (ix1 q)) * g (ix1 q) + beta (ix1 q)

/-- Entry (r, q) is the sum over c of X(r, c) · W(c, q). -/
def matProd {k n : Nat} (X : (⟨2, ![100000, k]⟩ : Shape).Idx → EReal) (W : (⟨2, ![k, n]⟩ : Shape).Idx → EReal) :
    (⟨2, ![100000, n]⟩ : Shape).Idx → EReal :=
  ofEntries fun r q => ∑ c : Fin k, X (ix2 r c) * W (ix2 c q)

/-- Entry (r, q) is the sum over c of X(r, c) · W(c, q), plus b(q). -/
def affineMap {k n : Nat} (X : (⟨2, ![100000, k]⟩ : Shape).Idx → EReal) (W : (⟨2, ![k, n]⟩ : Shape).Idx → EReal)
    (b : (⟨2, ![1, n]⟩ : Shape).Idx → EReal) : (⟨2, ![100000, n]⟩ : Shape).Idx → EReal :=
  ofEntries fun r q => (∑ c : Fin k, X (ix2 r c) * W (ix2 c q)) + b (ix2 0 q)

/-- Two 128-column arrays side by side: column k of the result is column k of A for k < 128, column k − 128 of B after. -/
def catCols (A B : (⟨2, ![100000, 128]⟩ : Shape).Idx → EReal) : (⟨2, ![100000, 256]⟩ : Shape).Idx → EReal :=
  ofEntries fun r k => if h : k.val < 128 then A (ix2 r ⟨k.val, h⟩) else B (ix2 r ⟨k.val - 128, by have := k.isLt; omega⟩)

/-- The gated update: n + s · (X − n) at (r, q), with s = logistic (f(r, q) + b(r, q)) and
    n = tanh (f(r, q + 128) + b(r, q + 128)), where f = [A_in | A_out]·Wg + bg and b = X·Wgo. -/
def gate (X Ain Aout : (⟨2, ![100000, 128]⟩ : Shape).Idx → EReal) (Wg : (⟨2, ![256, 256]⟩ : Shape).Idx → EReal)
    (bg : (⟨2, ![1, 256]⟩ : Shape).Idx → EReal) (Wgo : (⟨2, ![128, 256]⟩ : Shape).Idx → EReal) :
    (⟨2, ![100000, 128]⟩ : Shape).Idx → EReal :=
  ofEntries fun r q =>
    Ideal.tanh (affineMap (catCols Ain Aout) Wg bg (ix2 r (hi q)) + matProd X Wgo (ix2 r (hi q)))
      + Ideal.logistic (affineMap (catCols Ain Aout) Wg bg (ix2 r (lo q)) + matProd X Wgo (ix2 r (lo q)))
        * (X (ix2 r q) - Ideal.tanh (affineMap (catCols Ain Aout) Wg bg (ix2 r (hi q)) + matProd X Wgo (ix2 r (hi q))))

end Cert.Spec

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.Reg0.lean ====
/-
  Region 0 (the normalisation and the two projections), read as whole arrays: from any contents V at the region's
  entry, the three output arrays after the last grid point are the scale-and-shift of the feature rows and its two
  projections, entry by entry.
-/
import proofs.«135574_j25091198943527_1_alg».proof.Proof.Gen.KernelIdeal.Frame
import proofs.«135574_j25091198943527_1_alg».proof.Proof.Spec
import proofs.«135574_j25091198943527_1_alg».proof.Proof.LibMatmulPlain
import Idealize.ShloMosaic.Lib.Pipeline.Value
import Idealize.ShloMosaic.Lib.ValueIdx

noncomputable section

open scoped BigOperators

namespace Cert.KernelIdeal.Reg0

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The zero offsets of a whole-block access, however they are spelt. -/
private theorem zeroOffsets : (![0, 0] : Fin 2 → Nat) = fun _ => 0 := funext fun a => by fin_cases a <;> rfl

/-- The product's dimension record is the plain [2000,128]·[128,128] one. -/
private theorem dims_plain : dot_S2000x128_S128x128_S2000x128_1_0_0_1_n_n = DotDims.plain 2000 128 128 := rfl

/-- The scaled and shifted block at (p, q): x0(p, q) · x1(0, q) + x2(0, q). -/
private theorem pay1_apply (x0 : FVec Ideal S2000x128 .f32) (x1 x2 : FVec Ideal S1x128 .f32) (p : Fin 2000) (q : Fin 128) :
    k0_pay1 (F := Ideal) x0 x1 x2 (ix2 p q) = x0 (ix2 p q) * x1 (ix2 0 q) + x2 (ix2 0 q) := by
  unfold k0_pay1
  show x0 (ix2 p q) * broadcastTo S2000x128 (shapeCast S1x128 x1 shapeCasts_S1x128_S1x128) broadcasts_S1x128_S2000x128 (ix2 p q)
     + broadcastTo S2000x128 (shapeCast S1x128 x2 shapeCasts_S1x128_S1x128) broadcasts_S1x128_S2000x128 (ix2 p q) = _
  rw [shapeCast_self, shapeCast_self, Cert.LibMatmulPlain.rowBroadcast_apply, Cert.LibMatmulPlain.rowBroadcast_apply]

/-- A projection of the scaled and shifted block at (p, q): Σ_k x(p, k) · w(k, q) + b(0, q). -/
private theorem pay3_apply (x0 : FVec Ideal S2000x128 .f32) (x1 x2 : FVec Ideal S1x128 .f32) (w : FVec Ideal S128x128 .f32)
    (b : FVec Ideal S1x128 .f32) (p : Fin 2000) (q : Fin 128) :
    k0_pay3 (F := Ideal) x0 x1 x2 w b (ix2 p q)
      = (∑ k : Fin 128, k0_pay1 (F := Ideal) x0 x1 x2 (ix2 p k) * w (ix2 k q)) + b (ix2 0 q) := by
  unfold k0_pay3 k0_pay2
  show FloatOps.matmul dot_S2000x128_S128x128_S2000x128_1_0_0_1_n_n none (truncf .bf16 (k0_pay1 (F := Ideal) x0 x1 x2) bitsLt_bf16_f32)
        (truncf .bf16 w bitsLt_bf16_f32) (constant S2000x128 .f32 0x00000000#32) (ix2 p q)
     + broadcastTo S2000x128 (shapeCast S1x128 b shapeCasts_S1x128_S1x128) broadcasts_S1x128_S2000x128 (ix2 p q) = _
  rw [dims_plain, Cert.LibMatmulPlain.matmul_plain_zero_apply, shapeCast_self, Cert.LibMatmulPlain.rowBroadcast_apply]
  rfl

private theorem pay4_apply (x0 : FVec Ideal S2000x128 .f32) (x1 x2 : FVec Ideal S1x128 .f32) (w : FVec Ideal S128x128 .f32)
    (b : FVec Ideal S1x128 .f32) (p : Fin 2000) (q : Fin 128) :
    k0_pay4 (F := Ideal) x0 x1 x2 w b (ix2 p q)
      = (∑ k : Fin 128, k0_pay1 (F := Ideal) x0 x1 x2 (ix2 p k) * w (ix2 k q)) + b (ix2 0 q) := by
  unfold k0_pay4 k0_pay2
  show FloatOps.matmul dot_S2000x128_S128x128_S2000x128_1_0_0_1_n_n none (truncf .bf16 (k0_pay1 (F := Ideal) x0 x1 x2) bitsLt_bf16_f32)
        (truncf .bf16 w bitsLt_bf16_f32) (constant S2000x128 .f32 0x00000000#32) (ix2 p q)
     + broadcastTo S2000x128 (shapeCast S1x128 b shapeCasts_S1x128_S1x128) broadcasts_S1x128_S2000x128 (ix2 p q) = _
  rw [dims_plain, Cert.LibMatmulPlain.matmul_plain_zero_apply, shapeCast_self, Cert.LibMatmulPlain.rowBroadcast_apply]
  rfl

/-! ## The arrays the region reads and their blocks at a grid point, by their literal types -/

/-- The feature rows [100000, 128]. -/
private abbrev featArr (c : Dev nD) : S100000x128.Idx → EReal := V c main_arg0
/-- The folded scale row and shift row [1, 128]. -/
private abbrev scaleArr (c : Dev nD) : S1x128.Idx → EReal := V c main_v8
private abbrev shiftArr (c : Dev nD) : S1x128.Idx → EReal := V c main_v12
/-- The two projections' matrices [128, 128] and bias rows [1, 128]. -/
private abbrev wInArr (c : Dev nD) : S128x128.Idx → EReal := V c main_arg7
private abbrev bInArr (c : Dev nD) : S1x128.Idx → EReal := V c main_v13
private abbrev wOutArr (c : Dev nD) : S128x128.Idx → EReal := V c main_arg9
private abbrev bOutArr (c : Dev nD) : S1x128.Idx → EReal := V c main_v14

/-- Point t's block of each: 2000 feature rows, and the whole of every other array. -/
private abbrev featBlk (c : Dev nD) (t : Fin cfg0.N) : FVec Ideal S2000x128 .f32 := iblk0 V c 0 t
private abbrev scaleBlk (c : Dev nD) (t : Fin cfg0.N) : FVec Ideal S1x128 .f32 := iblk0 V c 1 t
private abbrev shiftBlk (c : Dev nD) (t : Fin cfg0.N) : FVec Ideal S1x128 .f32 := iblk0 V c 2 t
private abbrev wInBlk (c : Dev nD) (t : Fin cfg0.N) : FVec Ideal S128x128 .f32 := iblk0 V c 3 t
private abbrev bInBlk (c : Dev nD) (t : Fin cfg0.N) : FVec Ideal S1x128 .f32 := iblk0 V c 4 t
private abbrev wOutBlk (c : Dev nD) (t : Fin cfg0.N) : FVec Ideal S128x128 .f32 := iblk0 V c 5 t
private abbrev bOutBlk (c : Dev nD) (t : Fin cfg0.N) : FVec Ideal S1x128 .f32 := iblk0 V c 6 t

/-- The index maps over the 50 grid points: the feature rows and the three outputs move by one row block per point,
    every other window stays on its one block. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Entry (p, q) of point t's feature block is entry (2000·t + p, q) of the feature rows. -/
private theorem featBlk_apply (c : Dev nD) (t : Fin cfg0.N) (p : Fin 2000) (q : Fin 128) (r : Fin 100000)
    (hr : r.val = t.val * 2000 + p.val) : featBlk V c t (ix2 p q) = featArr V c (ix2 r q) := by
  have e := idx_facts t
  show ((cfg0.win 0).blk t).view.read (Elt Ideal) (V c (Pipeline.arrRef spec0 0)) (ix2 p q) = V c main_arg0 (ix2 r q)
  rw [View.read_apply]
  show V c main_arg0 _ = V c main_arg0 (ix2 r q)
  congr 1
  funext a; apply Fin.ext
  match a with
  | ⟨0, _⟩ => show win0_0.index t (0 : Fin 2) * 2000 + 1 * p.val = r.val; omega
  | ⟨1, _⟩ => show win0_0.index t (1 : Fin 2) * 128 + 1 * q.val = q.val; omega

/-- The scale row's block is the scale row. -/
private theorem scaleBlk_apply (c : Dev nD) (t : Fin cfg0.N) (q : Fin 128) : scaleBlk V c t (ix2 0 q) = scaleArr V c (ix2 0 q) := by
  have e := idx_facts t
  show ((cfg0.win 1).blk t).view.read (Elt Ideal) (V c (Pipeline.arrRef spec0 1)) (ix2 0 q) = V c main_v8 (ix2 0 q)
  rw [View.read_apply]
  show V c main_v8 _ = V c main_v8 (ix2 0 q)
  congr 1
  funext a; apply Fin.ext
  match a with
  | ⟨0, _⟩ => show win0_1.index t (0 : Fin 2) * 1 + 1 * 0 = 0; omega
  | ⟨1, _⟩ => show win0_1.index t (1 : Fin 2) * 128 + 1 * q.val = q.val; omega

/-- The shift row's block is the shift row. -/
private theorem shiftBlk_apply (c : Dev nD) (t : Fin cfg0.N) (q : Fin 128) : shiftBlk V c t (ix2 0 q) = shiftArr V c (ix2 0 q) := by
  have e := idx_facts t
  show ((cfg0.win 2).blk t).view.read (Elt Ideal) (V c (Pipeline.arrRef spec0 2)) (ix2 0 q) = V c main_v12 (ix2 0 q)
  rw [View.read_apply]
  show V c main_v12 _ = V c main_v12 (ix2 0 q)
  congr 1
  funext a; apply Fin.ext
  match a with
  | ⟨0, _⟩ => show win0_2.index t (0 : Fin 2) * 1 + 1 * 0 = 0; omega
  | ⟨1, _⟩ => show win0_2.index t (1 : Fin 2) * 128 + 1 * q.val = q.val; omega

/-- The first projection's matrix block is the matrix. -/
private theorem wInBlk_apply (c : Dev nD) (t : Fin cfg0.N) (k q : Fin 128) : wInBlk V c t (ix2 k q) = wInArr V c (ix2 k q) := by
  have e := idx_facts t
  show ((cfg0.win 3).blk t).view.read (Elt Ideal) (V c (Pipeline.arrRef spec0 3)) (ix2 k q) = V c main_arg7 (ix2 k q)
  rw [View.read_apply]
  show V c main_arg7 _ = V c main_arg7 (ix2 k q)
  congr 1
  funext a; apply Fin.ext
  match a with
  | ⟨0, _⟩ => show win0_3.index t (0 : Fin 2) * 128 + 1 * k.val = k.val; omega
  | ⟨1, _⟩ => show win0_3.index t (1 : Fin 2) * 128 + 1 * q.val = q.val; omega

/-- The first projection's bias block is the bias row. -/
private theorem bInBlk_apply (c : Dev nD) (t : Fin cfg0.N) (q : Fin 128) : bInBlk V c t (ix2 0 q) = bInArr V c (ix2 0 q) := by
  have e := idx_facts t
  show ((cfg0.win 4).blk t).view.read (Elt Ideal) (V c (Pipeline.arrRef spec0 4)) (ix2 0 q) = V c main_v13 (ix2 0 q)
  rw [View.read_apply]
  show V c main_v13 _ = V c main_v13 (ix2 0 q)
  congr 1
  funext a; apply Fin.ext
  match a with
  | ⟨0, _⟩ => show win0_4.index t (0 : Fin 2) * 1 + 1 * 0 = 0; omega
  | ⟨1, _⟩ => show win0_4.index t (1 : Fin 2) * 128 + 1 * q.val = q.val; omega

/-- The second projection's matrix block is the matrix. -/
private theorem wOutBlk_apply (c : Dev nD) (t : Fin cfg0.N) (k q : Fin 128) : wOutBlk V c t (ix2 k q) = wOutArr V c (ix2 k q) := by
  have e := idx_facts t
  show ((cfg0.win 5).blk t).view.read (Elt Ideal) (V c (Pipeline.arrRef spec0 5)) (ix2 k q) = V c main_arg9 (ix2 k q)
  rw [View.read_apply]
  show V c main_arg9 _ = V c main_arg9 (ix2 k q)
  congr 1
  funext a; apply Fin.ext
  match a with
  | ⟨0, _⟩ => show win0_5.index t (0 : Fin 2) * 128 + 1 * k.val = k.val; omega
  | ⟨1, _⟩ => show win0_5.index t (1 : Fin 2) * 128 + 1 * q.val = q.val; omega

/-- The second projection's bias block is the bias row. -/
private theorem bOutBlk_apply (c : Dev nD) (t : Fin cfg0.N) (q : Fin 128) : bOutBlk V c t (ix2 0 q) = bOutArr V c (ix2 0 q) := by
  have e := idx_facts t
  show ((cfg0.win 6).blk t).view.read (Elt Ideal) (V c (Pipeline.arrRef spec0 6)) (ix2 0 q) = V c main_v14 (ix2 0 q)
  rw [View.read_apply]
  show V c main_v14 _ = V c main_v14 (ix2 0 q)
  congr 1
  funext a; apply Fin.ext
  match a with
  | ⟨0, _⟩ => show win0_6.index t (0 : Fin 2) * 1 + 1 * 0 = 0; omega
  | ⟨1, _⟩ => show win0_6.index t (1 : Fin 2) * 128 + 1 * q.val = q.val; omega

/-! ## What a grid point writes back, entry by entry -/

/-- The scaled and shifted rows. -/
private abbrev xArr (c : Dev nD) : S100000x128.Idx → EReal :=
  Cert.Spec.scaleShift (featArr V c) (scaleArr V c) (shiftArr V c)

/-- Entry (p, q) of point t's scaled and shifted block is entry (2000·t + p, q) of the scaled and shifted rows. -/
private theorem xBlk_apply (c : Dev nD) (t : Fin cfg0.N) (p : Fin 2000) (q : Fin 128) (r : Fin 100000)
    (hr : r.val = t.val * 2000 + p.val) :
    k0_pay1 (F := Ideal) (featBlk V c t) (scaleBlk V c t) (shiftBlk V c t) (ix2 p q) = xArr V c (ix2 r q) := by
  refine (pay1_apply (featBlk V c t) (scaleBlk V c t) (shiftBlk V c t) p q).trans ?_
  rw [featBlk_apply V c t p q r hr, scaleBlk_apply V c t q, shiftBlk_apply V c t q]
  rfl

/-- The same at any index i of the array whose row is 2000·t + p and whose column is q. -/
private theorem xBlk_entry (c : Dev nD) (t : Fin cfg0.N) (p : Fin 2000) (q : Fin 128) (i : S100000x128.Idx)
    (hi0 : (i 0).val = t.val * 2000 + p.val) (hi1 : (i 1).val = q.val) :
    k0_pay1 (F := Ideal) (featBlk V c t) (scaleBlk V c t) (shiftBlk V c t) (ix2 p q) = xArr V c i := by
  obtain ⟨r, s, rfl⟩ : ∃ (r : Fin 100000) (s : Fin 128), i = ix2 r s := ⟨i 0, i 1, eq_ix2 i⟩
  obtain rfl : q = s := Fin.ext hi1.symm
  exact xBlk_apply V c t p q r hi0

/-- A projection of point t's block at (p, q) is the projection of the scaled and shifted rows at (2000·t + p, q). -/
private theorem projIn_entry (c : Dev nD) (t : Fin cfg0.N) (p : Fin 2000) (q : Fin 128) (i : S100000x128.Idx)
    (hi0 : (i 0).val = t.val * 2000 + p.val) (hi1 : (i 1).val = q.val) :
    k0_pay3 (F := Ideal) (featBlk V c t) (scaleBlk V c t) (shiftBlk V c t) (wInBlk V c t) (bInBlk V c t) (ix2 p q)
      = Cert.Spec.affineMap (xArr V c) (wInArr V c) (bInArr V c) i := by
  obtain ⟨r, s, rfl⟩ : ∃ (r : Fin 100000) (s : Fin 128), i = ix2 r s := ⟨i 0, i 1, eq_ix2 i⟩
  obtain rfl : q = s := Fin.ext hi1.symm
  refine (pay3_apply (featBlk V c t) (scaleBlk V c t) (shiftBlk V c t) (wInBlk V c t) (bInBlk V c t) p q).trans ?_
  rw [bInBlk_apply V c t q]
  show _ = (∑ k : Fin 128, xArr V c (ix2 r k) * wInArr V c (ix2 k q)) + bInArr V c (ix2 0 q)
  refine congrArg (· + bInArr V c (ix2 0 q)) (Finset.sum_congr rfl fun k _ => ?_)
  rw [xBlk_apply V c t p k r hi0, wInBlk_apply V c t k q]

private theorem projOut_entry (c : Dev nD) (t : Fin cfg0.N) (p : Fin 2000) (q : Fin 128) (i : S100000x128.Idx)
    (hi0 : (i 0).val = t.val * 2000 + p.val) (hi1 : (i 1).val = q.val) :
    k0_pay4 (F := Ideal) (featBlk V c t) (scaleBlk V c t) (shiftBlk V c t) (wOutBlk V c t) (bOutBlk V c t) (ix2 p q)
      = Cert.Spec.affineMap (xArr V c) (wOutArr V c) (bOutArr V c) i := by
  obtain ⟨r, s, rfl⟩ : ∃ (r : Fin 100000) (s : Fin 128), i = ix2 r s := ⟨i 0, i 1, eq_ix2 i⟩
  obtain rfl : q = s := Fin.ext hi1.symm
  refine (pay4_apply (featBlk V c t) (scaleBlk V c t) (shiftBlk V c t) (wOutBlk V c t) (bOutBlk V c t) p q).trans ?_
  rw [bOutBlk_apply V c t q]
  show _ = (∑ k : Fin 128, xArr V c (ix2 r k) * wOutArr V c (ix2 k q)) + bOutArr V c (ix2 0 q)
  refine congrArg (· + bOutArr V c (ix2 0 q)) (Finset.sum_congr rfl fun k _ => ?_)
  rw [xBlk_apply V c t p k r hi0, wOutBlk_apply V c t k q]

/-! ## From blocks to arrays -/

/-- Point t writes back its block of the scaled and shifted rows. -/
private theorem flushed7_eq (c : Dev nD) (t : Fin cfg0.N) :
    (dat0 V c).flushed 7 t = ((cfg0.win 7).blk t).view.read (Elt Ideal) (xArr V c) := by
  have e := idx_facts t
  show (cfg0.win 7).cut (grid0.coords t) ((dat0 V c).after 7 t) = _
  rw [after0_7]
  unfold out0_7
  rw [View.canon_unit_zero zeroOffsets]
  simp only [View.ld_unit_zero (S := S2000x128) zeroOffsets, View.ld_unit_zero (S := S1x128) zeroOffsets]
  funext j
  obtain ⟨p, q, rfl⟩ : ∃ (p : Fin 2000) (q : Fin 128), j = ix2 p q := ⟨j 0, j 1, eq_ix2 j⟩
  show k0_pay1 (F := Ideal) (featBlk V c t) (scaleBlk V c t) (shiftBlk V c t) (ix2 p q) = (xArr V c) (((cfg0.win 7).blk t).view.emb (ix2 p q))
  refine xBlk_entry V c t p q _ ?_ ?_
  · show win0_7.index t (0 : Fin 2) * 2000 + 1 * p.val = t.val * 2000 + p.val; omega
  · show win0_7.index t (1 : Fin 2) * 128 + 1 * q.val = q.val; omega

/-- Point t writes back its block of the first projection. -/
private theorem flushed8_eq (c : Dev nD) (t : Fin cfg0.N) :
    (dat0 V c).flushed 8 t = ((cfg0.win 8).blk t).view.read (Elt Ideal) (Cert.Spec.affineMap (xArr V c) (wInArr V c) (bInArr V c)) := by
  have e := idx_facts t
  show (cfg0.win 8).cut (grid0.coords t) ((dat0 V c).after 8 t) = _
  rw [after0_8]
  unfold out0_8
  rw [View.canon_unit_zero zeroOffsets]
  simp only [View.ld_unit_zero (S := S2000x128) zeroOffsets, View.ld_unit_zero (S := S1x128) zeroOffsets, View.ld_unit_zero (S := S128x128) zeroOffsets]
  funext j
  obtain ⟨p, q, rfl⟩ : ∃ (p : Fin 2000) (q : Fin 128), j = ix2 p q := ⟨j 0, j 1, eq_ix2 j⟩
  show k0_pay3 (F := Ideal) (featBlk V c t) (scaleBlk V c t) (shiftBlk V c t) (wInBlk V c t) (bInBlk V c t) (ix2 p q) = (Cert.Spec.affineMap (xArr V c) (wInArr V c) (bInArr V c)) (((cfg0.win 8).blk t).view.emb (ix2 p q))
  refine projIn_entry V c t p q _ ?_ ?_
  · show win0_8.index t (0 : Fin 2) * 2000 + 1 * p.val = t.val * 2000 + p.val; omega
  · show win0_8.index t (1 : Fin 2) * 128 + 1 * q.val = q.val; omega

/-- Point t writes back its block of the second projection. -/
private theorem flushed9_eq (c : Dev nD) (t : Fin cfg0.N) :
    (dat0 V c).flushed 9 t = ((cfg0.win 9).blk t).view.read (Elt Ideal) (Cert.Spec.affineMap (xArr V c) (wOutArr V c) (bOutArr V c)) := by
  have e := idx_facts t
  show (cfg0.win 9).cut (grid0.coords t) ((dat0 V c).after 9 t) = _
  rw [after0_9]
  unfold out0_9
  rw [View.canon_unit_zero zeroOffsets]
  simp only [View.ld_unit_zero (S := S2000x128) zeroOffsets, View.ld_unit_zero (S := S1x128) zeroOffsets, View.ld_unit_zero (S := S128x128) zeroOffsets]
  funext j
  obtain ⟨p, q, rfl⟩ : ∃ (p : Fin 2000) (q : Fin 128), j = ix2 p q := ⟨j 0, j 1, eq_ix2 j⟩
  show k0_pay4 (F := Ideal) (featBlk V c t) (scaleBlk V c t) (shiftBlk V c t) (wOutBlk V c t) (bOutBlk V c t) (ix2 p q) = (Cert.Spec.affineMap (xArr V c) (wOutArr V c) (bOutArr V c)) (((cfg0.win 9).blk t).view.emb (ix2 p q))
  refine projOut_entry V c t p q _ ?_ ?_
  · show win0_9.index t (0 : Fin 2) * 2000 + 1 * p.val = t.val * 2000 + p.val; omega
  · show win0_9.index t (1 : Fin 2) * 128 + 1 * q.val = q.val; omega

/-- An index of the array is in point t's block iff each coordinate is in the block's range on its axis. -/
private theorem mem_blk7 (t : Fin cfg0.N) (i : S100000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v16_0).slice (win0_7.rect t)).set ↔ _
  rw [View.set_slice_whole, Rect.mem_set_unit]
  exact Iff.rfl

/-- Row r of the array lies in the block of point r / 2000, which is written back. -/
private theorem cover7 (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by show (i 0).val / 2000 < 50; omega⟩, rfl⟩
  have e := idx_facts t
  refine ⟨t, flush0_7 t, ?_⟩
  rw [mem_blk7]
  intro a
  match a with
  | ⟨0, _⟩ =>
    show win0_7.index t (0 : Fin 2) * 2000 ≤ (i 0).val ∧ (i 0).val < win0_7.index t (0 : Fin 2) * 2000 + 2000
    omega
  | ⟨1, _⟩ =>
    show win0_7.index t (1 : Fin 2) * 128 ≤ (i 1).val ∧ (i 1).val < win0_7.index t (1 : Fin 2) * 128 + 128
    omega

/-- An index of the array is in point t's block iff each coordinate is in the block's range on its axis. -/
private theorem mem_blk8 (t : Fin cfg0.N) (i : S100000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v16_1).slice (win0_8.rect t)).set ↔ _
  rw [View.set_slice_whole, Rect.mem_set_unit]
  exact Iff.rfl

/-- Row r of the array lies in the block of point r / 2000, which is written back. -/
private theorem cover8 (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by show (i 0).val / 2000 < 50; omega⟩, rfl⟩
  have e := idx_facts t
  refine ⟨t, flush0_8 t, ?_⟩
  rw [mem_blk8]
  intro a
  match a with
  | ⟨0, _⟩ =>
    show win0_8.index t (0 : Fin 2) * 2000 ≤ (i 0).val ∧ (i 0).val < win0_8.index t (0 : Fin 2) * 2000 + 2000
    omega
  | ⟨1, _⟩ =>
    show win0_8.index t (1 : Fin 2) * 128 ≤ (i 1).val ∧ (i 1).val < win0_8.index t (1 : Fin 2) * 128 + 128
    omega

/-- An index of the array is in point t's block iff each coordinate is in the block's range on its axis. -/
private theorem mem_blk9 (t : Fin cfg0.N) (i : S100000x128.Idx) :
    i ∈ ((cfg0.win 9).blk t).view.set ↔ ∀ a : Fin 2, win0_9.index t a * S2000x128.size a ≤ (i a).val
      ∧ (i a).val < win0_9.index t a * S2000x128.size a + S2000x128.size a := by
  show i ∈ ((View.whole main_v16_2).slice (win0_9.rect t)).set ↔ _
  rw [View.set_slice_whole, Rect.mem_set_unit]
  exact Iff.rfl

/-- Row r of the array lies in the block of point r / 2000, which is written back. -/
private theorem cover9 (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by show (i 0).val / 2000 < 50; omega⟩, rfl⟩
  have e := idx_facts t
  refine ⟨t, flush0_9 t, ?_⟩
  rw [mem_blk9]
  intro a
  match a with
  | ⟨0, _⟩ =>
    show win0_9.index t (0 : Fin 2) * 2000 ≤ (i 0).val ∧ (i 0).val < win0_9.index t (0 : Fin 2) * 2000 + 2000
    omega
  | ⟨1, _⟩ =>
    show win0_9.index t (1 : Fin 2) * 128 ≤ (i 1).val ∧ (i 1).val < win0_9.index t (1 : Fin 2) * 128 + 128
    omega

/-! ## The three arrays after the last grid point -/

theorem x_arr (c : Dev nD) :
    (dat0 V c).arrAt 7 cfg0.N = Cert.Spec.scaleShift (V c main_arg0) (V c main_v8) (V c main_v12) := by
  exact (dat0 V c).arrAt_eq_of_cover 7 (xArr V c) (fun t _ => flushed7_eq V c t) cover7

theorem fin_arr (c : Dev nD) :
    (dat0 V c).arrAt 8 cfg0.N
      = Cert.Spec.affineMap (Cert.Spec.scaleShift (V c main_arg0) (V c main_v8) (V c main_v12)) (V c main_arg7) (V c main_v13) := by
  exact (dat0 V c).arrAt_eq_of_cover 8 (Cert.Spec.affineMap (xArr V c) (wInArr V c) (bInArr V c)) (fun t _ => flushed8_eq V c t) cover8

theorem fout_arr (c : Dev nD) :
    (dat0 V c).arrAt 9 cfg0.N
      = Cert.Spec.affineMap (Cert.Spec.scaleShift (V c main_arg0) (V c main_v8) (V c main_v12)) (V c main_arg9) (V c main_v14) := by
  exact (dat0 V c).arrAt_eq_of_cover 9 (Cert.Spec.affineMap (xArr V c) (wOutArr V c) (bOutArr V c)) (fun t _ => flushed9_eq V c t) cover9

end Cert.KernelIdeal.Reg0

end
-- ==== Proof.Reg1.lean ====
/-
  Region 1 (the gated update), read as a whole array: from any contents V at the region's entry, the output array
  after the last grid point is the gate of the normalised rows and the two aggregates, entry by entry.

  First the body's value at one entry (p, q) of a block of 2000 rows: the two aggregate blocks side by side times Wg
  plus the bias row, and the feature block times Wgo, each read in its left and right 128 columns; the logistic of the
  left sums and the hyperbolic tangent of the right sums; n + s · (x − n). Then the blocks as rows of the arrays: row p
  of the block at grid point t is row 2000·t + p, and the three parameter arrays are read whole at every point. So
  point t writes rows 2000·t … 2000·t + 1999 of the gate, and the 50 points' blocks tile the 100000 rows.
-/
import proofs.«135574_j25091198943527_1_alg».proof.Proof.Gen.KernelIdeal.Frame
import proofs.«135574_j25091198943527_1_alg».proof.Proof.Spec
import proofs.«135574_j25091198943527_1_alg».proof.Proof.LibMatmulPlain
import Idealize.ShloMosaic.Lib.Pipeline.Value
import Idealize.ShloMosaic.Lib.ValueIdx

noncomputable section

open scoped BigOperators

namespace Cert.KernelIdeal.Reg1

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The body's value at an entry of a block -/

private theorem dotWg_eq : dot_S2000x256_S256x256_S2000x256_1_0_0_1_n_n = DotDims.plain 2000 256 256 := rfl
private theorem dotWgo_eq : dot_S2000x128_S128x256_S2000x256_1_0_0_1_n_n = DotDims.plain 2000 128 256 := rfl

/-- The two blocks side by side, read at (p, k). -/
private theorem cat_apply (a1 a2 : Vec Ideal S2000x128 .f32) (p : Fin 2000) (k : Fin 256) :
    concatenate S2000x256 1 [⟨S2000x128, a1⟩, ⟨S2000x128, a2⟩] concatenates_S2000x128_S2000x128_S2000x256_d1 (ix2 p k)
      = if h : k.val < 128 then a1 (ix2 p ⟨k.val, h⟩) else a2 (ix2 p ⟨k.val - 128, by have := k.isLt; omega⟩) := by
  split
  · next h =>
    refine concatenate_pair_apply_left (1 : Fin 2) a1 a2 concatenates_S2000x128_S2000x128_S2000x256_d1 (ix2 p k) rfl (ix2 p ⟨k.val, h⟩) fun b => ?_
    match b with
    | ⟨0, _⟩ => rfl
    | ⟨1, _⟩ => rfl
  · next h =>
    refine concatenate_pair_apply_right (1 : Fin 2) a1 a2 concatenates_S2000x128_S2000x128_S2000x256_d1 (ix2 p k) rfl rfl (ix2 p ⟨k.val - 128, by have := k.isLt; omega⟩) (fun b hb => ?_) ?_
    · match b with
      | ⟨0, _⟩ => rfl
      | ⟨1, _⟩ => exact absurd rfl hb
    · show k.val - 128 + 128 = k.val
      omega

/-- The left 128 columns of a 256-column block, read at (p, q). -/
private theorem sliceLo_apply (v : FVec Ideal S2000x256 .f32) (p : Fin 2000) (q : Fin 128) :
    extractStridedSlice S2000x128 ![0, 0] v slices_S2000x256_o0_0_S2000x128 (ix2 p q) = v (ix2 p (Cert.Spec.lo q)) := by
  refine extractStridedSlice_apply ![0, 0] v slices_S2000x256_o0_0_S2000x128 (ix2 p q) (ix2 p (Cert.Spec.lo q)) fun a => ?_
  match a with
  | ⟨0, _⟩ => show p.val = 0 + p.val; omega
  | ⟨1, _⟩ => show q.val = 0 + q.val; omega

/-- The right 128 columns, read at (p, q). -/
private theorem sliceHi_apply (v : FVec Ideal S2000x256 .f32) (p : Fin 2000) (q : Fin 128) :
    extractStridedSlice S2000x128 ![0, 128] v slices_S2000x256_o0_128_S2000x128 (ix2 p q) = v (ix2 p (Cert.Spec.hi q)) := by
  refine extractStridedSlice_apply ![0, 128] v slices_S2000x256_o0_128_S2000x128 (ix2 p q) (ix2 p (Cert.Spec.hi q)) fun a => ?_
  match a with
  | ⟨0, _⟩ => show p.val = 0 + p.val; omega
  | ⟨1, _⟩ => show q.val + 128 = 128 + q.val; omega

/-- The first product read at (p, k): the sum over the 256 contracted columns. -/
private theorem prodWg_apply (a : FVec Ideal S2000x256 .f32) (wg : FVec Ideal S256x256 .f32) (p : Fin 2000) (k : Fin 256) :
    matmul dot_S2000x256_S256x256_S2000x256_1_0_0_1_n_n none (truncf .bf16 a bitsLt_bf16_f32) (truncf .bf16 wg bitsLt_bf16_f32)
        (constant S2000x256 .f32 0x00000000#32) (ix2 p k)
      = ∑ c : Fin 256, a (ix2 p c) * wg (ix2 c k) := by
  rw [dotWg_eq]
  exact Cert.LibMatmulPlain.matmul_plain_zero_apply none (truncf .bf16 a bitsLt_bf16_f32) (truncf .bf16 wg bitsLt_bf16_f32) p k

/-- The bias row broadcast down the block, read at (p, k). -/
private theorem bias_apply (bg : FVec Ideal S1x256 .f32) (p : Fin 2000) (k : Fin 256) :
    broadcastTo S2000x256 (shapeCast S1x256 bg shapeCasts_S1x256_S1x256) broadcasts_S1x256_S2000x256 (ix2 p k) = bg (ix2 0 k) := by
  rw [shapeCast_self]
  exact Cert.LibMatmulPlain.rowBroadcast_apply bg broadcasts_S1x256_S2000x256 p k

/-- The second product read at (p, k): the sum over the 128 contracted columns. -/
private theorem prodWgo_apply (x : FVec Ideal S2000x128 .f32) (wgo : FVec Ideal S128x256 .f32) (p : Fin 2000) (k : Fin 256) :
    matmul dot_S2000x128_S128x256_S2000x256_1_0_0_1_n_n none (truncf .bf16 x bitsLt_bf16_f32) (truncf .bf16 wgo bitsLt_bf16_f32)
        (constant S2000x256 .f32 0x00000000#32) (ix2 p k)
      = ∑ c : Fin 128, x (ix2 p c) * wgo (ix2 c k) := by
  rw [dotWgo_eq]
  exact Cert.LibMatmulPlain.matmul_plain_zero_apply none (truncf .bf16 x bitsLt_bf16_f32) (truncf .bf16 wgo bitsLt_bf16_f32) p k

private theorem tanh_apply {s : Shape} {φ : FTy} (a : FVec Ideal s φ) (i : s.Idx) : tanh a i = Ideal.tanh (a i) := rfl
private theorem logistic_apply {s : Shape} {φ : FTy} (a : FVec Ideal s φ) (i : s.Idx) : logistic a i = Ideal.logistic (a i) := rfl

/-- The side-by-side rows of two blocks (the specification's `catCols`, on a block). -/
private abbrev catBlk (ain aout : FVec Ideal S2000x128 .f32) : FVec Ideal S2000x256 .f32 :=
  fun i => if h : (i 1).val < 128 then ain (ix2 (i 0) ⟨(i 1).val, h⟩) else aout (ix2 (i 0) ⟨(i 1).val - 128, by have := idx2_lt1 i; omega⟩)

private theorem cat_eq (ain aout : FVec Ideal S2000x128 .f32) :
    concatenate S2000x256 1 [⟨S2000x128, ain⟩, ⟨S2000x128, aout⟩] concatenates_S2000x128_S2000x128_S2000x256_d1 = catBlk ain aout := by
  funext i
  obtain ⟨p, k, rfl⟩ : ∃ (p : Fin 2000) (k : Fin 256), i = ix2 p k := ⟨i 0, i 1, eq_ix2 i⟩
  exact cat_apply ain aout p k

/-- The body's value at entry (p, q) of the block. -/
private theorem pay_apply (x ain aout : FVec Ideal S2000x128 .f32) (wg : FVec Ideal S256x256 .f32) (bg : FVec Ideal S1x256 .f32)
    (wgo : FVec Ideal S128x256 .f32) (p : Fin 2000) (q : Fin 128) :
    k1_pay1 (F := Ideal) x ain aout wg bg wgo (ix2 p q)
      = Ideal.tanh (((∑ c : Fin 256, catBlk ain aout (ix2 p c) * wg (ix2 c (Cert.Spec.hi q))) + bg (ix2 0 (Cert.Spec.hi q)))
            + ∑ c : Fin 128, x (ix2 p c) * wgo (ix2 c (Cert.Spec.hi q)))
        + Ideal.logistic (((∑ c : Fin 256, catBlk ain aout (ix2 p c) * wg (ix2 c (Cert.Spec.lo q))) + bg (ix2 0 (Cert.Spec.lo q)))
            + ∑ c : Fin 128, x (ix2 p c) * wgo (ix2 c (Cert.Spec.lo q)))
          * (x (ix2 p q) - Ideal.tanh (((∑ c : Fin 256, catBlk ain aout (ix2 p c) * wg (ix2 c (Cert.Spec.hi q))) + bg (ix2 0 (Cert.Spec.hi q)))
            + ∑ c : Fin 128, x (ix2 p c) * wgo (ix2 c (Cert.Spec.hi q)))) := by
  unfold k1_pay1
  simp only [shapeCast_self (s := S2000x128)]
  rw [cat_eq]
  simp only [shapeCast_self (s := S2000x128), addf_apply, mulf_apply, subf_apply, tanh_apply, logistic_apply, sliceHi_apply, sliceLo_apply,
    prodWg_apply, prodWgo_apply, bias_apply]

/-! ## The blocks as rows of the arrays -/

/-- The arrays the region finds, each at its literal type. -/
private abbrev xArr (c : Dev nD) : FVec Ideal S100000x128 .f32 := V c main_v16_0
private abbrev ainArr (c : Dev nD) : FVec Ideal S100000x128 .f32 := V c main_v29
private abbrev aoutArr (c : Dev nD) : FVec Ideal S100000x128 .f32 := V c main_v42
private abbrev wgArr (c : Dev nD) : FVec Ideal S256x256 .f32 := V c main_arg11
private abbrev bgArr (c : Dev nD) : FVec Ideal S1x256 .f32 := V c main_v15
private abbrev wgoArr (c : Dev nD) : FVec Ideal S128x256 .f32 := V c main_arg13

/-- The blocks point t reads, each at its literal type. -/
private abbrev xBlk (c : Dev nD) (t : Fin cfg1.N) : FVec Ideal S2000x128 .f32 := iblk1 V c 0 t
private abbrev ainBlk (c : Dev nD) (t : Fin cfg1.N) : FVec Ideal S2000x128 .f32 := iblk1 V c 1 t
private abbrev aoutBlk (c : Dev nD) (t : Fin cfg1.N) : FVec Ideal S2000x128 .f32 := iblk1 V c 2 t
private abbrev wgBlk (c : Dev nD) (t : Fin cfg1.N) : FVec Ideal S256x256 .f32 := iblk1 V c 3 t
private abbrev bgBlk (c : Dev nD) (t : Fin cfg1.N) : FVec Ideal S1x256 .f32 := iblk1 V c 4 t
private abbrev wgoBlk (c : Dev nD) (t : Fin cfg1.N) : FVec Ideal S128x256 .f32 := iblk1 V c 5 t

private theorem hz : (![0, 0] : Fin 2 → Nat) = fun _ => 0 := funext fun a => by fin_cases a <;> rfl

/-- The block indices over the grid: the row-block windows sit at block (t, 0), the whole-array windows at (0, 0). -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of point t's block is row 2000·t + p of the array. -/
private abbrev rowOf (t : Fin cfg1.N) (p : Fin 2000) : Fin 100000 :=
  ⟨2000 * t.val + p.val, by have := t.isLt; have h : cfg1.N = 50 := N_1; have := p.isLt; omega⟩

private theorem xBlk_apply (c : Dev nD) (t : Fin cfg1.N) (p : Fin 2000) (q : Fin 128) :
    xBlk V c t (ix2 p q) = xArr V c (ix2 (rowOf t p) q) := by
  obtain ⟨e0, e1, -⟩ := idx_facts t
  show iblk1 V c 0 t (ix2 p q) = _
  unfold iblk1
  rw [View.read_apply]
  show V c main_v16_0 _ = V c main_v16_0 _
  congr 1
  funext a
  apply Fin.ext
  match a with
  | ⟨0, _⟩ => show win1_0.index t (0 : Fin 2) * 2000 + 1 * p.val = 2000 * t.val + p.val; rw [e0]; omega
  | ⟨1, _⟩ => show win1_0.index t (1 : Fin 2) * 128 + 1 * q.val = q.val; rw [e1]; omega

private theorem ainBlk_apply (c : Dev nD) (t : Fin cfg1.N) (p : Fin 2000) (q : Fin 128) :
    ainBlk V c t (ix2 p q) = ainArr V c (ix2 (rowOf t p) q) := by
  obtain ⟨-, -, e0, e1, -⟩ := idx_facts t
  show iblk1 V c 1 t (ix2 p q) = _
  unfold iblk1
  rw [View.read_apply]
  show V c main_v29 _ = V c main_v29 _
  congr 1
  funext a
  apply Fin.ext
  match a with
  | ⟨0, _⟩ => show win1_1.index t (0 : Fin 2) * 2000 + 1 * p.val = 2000 * t.val + p.val; rw [e0]; omega
  | ⟨1, _⟩ => show win1_1.index t (1 : Fin 2) * 128 + 1 * q.val = q.val; rw [e1]; omega

private theorem aoutBlk_apply (c : Dev nD) (t : Fin cfg1.N) (p : Fin 2000) (q : Fin 128) :
    aoutBlk V c t (ix2 p q) = aoutArr V c (ix2 (rowOf t p) q) := by
  obtain ⟨-, -, -, -, e0, e1, -⟩ := idx_facts t
  show iblk1 V c 2 t (ix2 p q) = _
  unfold iblk1
  rw [View.read_apply]
  show V c main_v42 _ = V c main_v42 _
  congr 1
  funext a
  apply Fin.ext
  match a with
  | ⟨0, _⟩ => show win1_2.index t (0 : Fin 2) * 2000 + 1 * p.val = 2000 * t.val + p.val; rw [e0]; omega
  | ⟨1, _⟩ => show win1_2.index t (1 : Fin 2) * 128 + 1 * q.val = q.val; rw [e1]; omega

/-- The three parameter arrays are one block each, read whole at every point. -/
private theorem wgBlk_eq (c : Dev nD) (t : Fin cfg1.N) : wgBlk V c t = wgArr V c := by
  obtain ⟨-, -, -, -, -, -, e0, e1, -⟩ := idx_facts t
  funext j
  obtain ⟨a, b, rfl⟩ : ∃ (a : Fin 256) (b : Fin 256), j = ix2 a b := ⟨j 0, j 1, eq_ix2 j⟩
  show iblk1 V c 3 t (ix2 a b) = _
  unfold iblk1
  rw [View.read_apply]
  show V c main_arg11 _ = V c main_arg11 _
  congr 1
  funext ax
  apply Fin.ext
  match ax with
  | ⟨0, _⟩ => show win1_3.index t (0 : Fin 2) * 256 + 1 * a.val = a.val; rw [e0]; omega
  | ⟨1, _⟩ => show win1_3.index t (1 : Fin 2) * 256 + 1 * b.val = b.val; rw [e1]; omega

private theorem bgBlk_eq (c : Dev nD) (t : Fin cfg1.N) : bgBlk V c t = bgArr V c := by
  obtain ⟨-, -, -, -, -, -, -, -, e0, e1, -⟩ := idx_facts t
  funext j
  obtain ⟨a, b, rfl⟩ : ∃ (a : Fin 1) (b : Fin 256), j = ix2 a b := ⟨j 0, j 1, eq_ix2 j⟩
  show iblk1 V c 4 t (ix2 a b) = _
  unfold iblk1
  rw [View.read_apply]
  show V c main_v15 _ = V c main_v15 _
  congr 1
  funext ax
  apply Fin.ext
  match ax with
  | ⟨0, _⟩ => show win1_4.index t (0 : Fin 2) * 1 + 1 * a.val = a.val; rw [e0]; omega
  | ⟨1, _⟩ => show win1_4.index t (1 : Fin 2) * 256 + 1 * b.val = b.val; rw [e1]; omega

private theorem wgoBlk_eq (c : Dev nD) (t : Fin cfg1.N) : wgoBlk V c t = wgoArr V c := by
  obtain ⟨-, -, -, -, -, -, -, -, -, -, e0, e1, -⟩ := idx_facts t
  funext j
  obtain ⟨a, b, rfl⟩ : ∃ (a : Fin 128) (b : Fin 256), j = ix2 a b := ⟨j 0, j 1, eq_ix2 j⟩
  show iblk1 V c 5 t (ix2 a b) = _
  unfold iblk1
  rw [View.read_apply]
  show V c main_arg13 _ = V c main_arg13 _
  congr 1
  funext ax
  apply Fin.ext
  match ax with
  | ⟨0, _⟩ => show win1_5.index t (0 : Fin 2) * 128 + 1 * a.val = a.val; rw [e0]; omega
  | ⟨1, _⟩ => show win1_5.index t (1 : Fin 2) * 256 + 1 * b.val = b.val; rw [e1]; omega

/-- Point t's block of any array of the output's shape: its rows 2000·t … 2000·t + 1999. -/
private theorem outRows_apply (G : FVec Ideal S100000x128 .f32) (t : Fin cfg1.N) (p : Fin 2000) (q : Fin 128) :
    (((cfg1.win 6).blk t).view.read (Elt Ideal) G : FVec Ideal S2000x128 .f32) (ix2 p q) = G (ix2 (rowOf t p) q) := by
  obtain ⟨-, -, -, -, -, -, -, -, -, -, -, -, e0, e1⟩ := idx_facts t
  rw [View.read_apply]
  show G _ = G _
  congr 1
  funext a
  apply Fin.ext
  match a with
  | ⟨0, _⟩ => show win1_6.index t (0 : Fin 2) * 2000 + 1 * p.val = 2000 * t.val + p.val; rw [e0]; omega
  | ⟨1, _⟩ => show win1_6.index t (1 : Fin 2) * 128 + 1 * q.val = q.val; rw [e1]; omega

/-! ## What each point writes, and the whole array -/

/-- The gate of the arrays the region finds. -/
private abbrev gateArr (c : Dev nD) : FVec Ideal S100000x128 .f32 :=
  Cert.Spec.gate (xArr V c) (ainArr V c) (aoutArr V c) (wgArr V c) (bgArr V c) (wgoArr V c)

/-- The body's value at entry (p, q) of point t's blocks is the gate at (2000·t + p, q). -/
private theorem payBlk_apply (c : Dev nD) (t : Fin cfg1.N) (p : Fin 2000) (q : Fin 128) :
    k1_pay1 (F := Ideal) (xBlk V c t) (ainBlk V c t) (aoutBlk V c t) (wgBlk V c t) (bgBlk V c t) (wgoBlk V c t) (ix2 p q)
      = gateArr V c (ix2 (rowOf t p) q) := by
  refine (pay_apply (xBlk V c t) (ainBlk V c t) (aoutBlk V c t) (wgBlk V c t) (bgBlk V c t) (wgoBlk V c t) p q).trans ?_
  rw [wgBlk_eq, bgBlk_eq, wgoBlk_eq]
  have hcat : ∀ k : Fin 256, catBlk (ainBlk V c t) (aoutBlk V c t) (ix2 p k)
      = Cert.Spec.catCols (ainArr V c) (aoutArr V c) (ix2 (rowOf t p) k) := fun k => by
    show (if h : k.val < 128 then ainBlk V c t (ix2 p ⟨k.val, h⟩) else aoutBlk V c t (ix2 p ⟨k.val - 128, _⟩))
      = (if h : k.val < 128 then ainArr V c (ix2 (rowOf t p) ⟨k.val, h⟩) else aoutArr V c (ix2 (rowOf t p) ⟨k.val - 128, _⟩))
    split
    · exact ainBlk_apply V c t p _
    · exact aoutBlk_apply V c t p _
  simp only [hcat, xBlk_apply]
  rfl

/-- WHAT POINT t WRITES BACK is block t of the gate of the arrays as the region finds them. -/
private theorem flushed_eq (c : Dev nD) (t : Fin cfg1.N) :
    (dat1 V c).flushed 6 t = ((cfg1.win 6).blk t).view.read (Elt Ideal) (gateArr V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S256x256) hz, View.ld_unit_zero (S := S1x256) hz,
    View.ld_unit_zero (S := S128x256) hz]
  funext j
  obtain ⟨p, q, rfl⟩ : ∃ (p : Fin 2000) (q : Fin 128), j = ix2 p q := ⟨j 0, j 1, eq_ix2 j⟩
  exact (payBlk_apply V c t p q).trans (outRows_apply (gateArr V c) t p q).symm

/-- An index of the array is in point t's block iff each coordinate is in the block's range on its axis. -/
private theorem mem_blk (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v43).slice (win1_6.rect t)).set ↔ _
  rw [View.set_slice_whole, Rect.mem_set_unit]
  exact Iff.rfl

/-- Row r is in the block of point r / 2000: the 50 blocks tile the array. -/
private theorem cover (i : S100000x128.Idx) : ∃ t : Fin cfg1.N, (cfg1.win 6).flush t = true ∧ i ∈ ((cfg1.win 6).blk t).view.set := by
  have hi0 : (i 0).val < 100000 := idx2_lt0 i
  have hi1 : (i 1).val < 128 := idx2_lt1 i
  have hN : cfg1.N = 50 := N_1
  have ht : (i 0).val / 2000 < cfg1.N := by omega
  obtain ⟨-, -, -, -, -, -, -, -, -, -, -, -, e0, e1⟩ := idx_facts ⟨(i 0).val / 2000, ht⟩
  refine ⟨⟨(i 0).val / 2000, ht⟩, flush1_6 _, ?_⟩
  rw [mem_blk]
  intro a
  match a with
  | ⟨0, _⟩ =>
    show win1_6.index ⟨(i 0).val / 2000, ht⟩ (0 : Fin 2) * 2000 ≤ (i 0).val
      ∧ (i 0).val < win1_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, ht⟩ (1 : Fin 2) * 128 ≤ (i 1).val
      ∧ (i 1).val < win1_6.index ⟨(i 0).val / 2000, ht⟩ (1 : Fin 2) * 128 + 128
    rw [e1]; omega

theorem out_arr (c : Dev nD) :
    (dat1 V c).arrAt 6 cfg1.N
      = Cert.Spec.gate (V c main_v16_0) (V c main_v29) (V c main_v42) (V c main_arg11) (V c main_v15) (V c main_arg13) :=
  (dat1 V c).arrAt_eq_of_cover 6 (gateArr V c) (fun t _ => flushed_eq V c t) cover

end Cert.KernelIdeal.Reg1

end
-- ==== Proof.RefRead.lean ====
/-
  The reference's stages read entry by entry: the normalised rows, a projection and the gated update are the
  entrywise functions of Spec.lean (a bias vector laid along one row first, as the host lays it).
-/
import proofs.«135574_j25091198943527_1_alg».proof.Proof.RefTerm
import proofs.«135574_j25091198943527_1_alg».proof.Proof.Spec
import Idealize.ShloMosaic.Lib.ValueIdx
import Idealize.ShloMosaic.Lib.IdealHost
import Idealize.ShloMosaic.Lib.KernelVsHost
import Idealize.ShloMosaic.Lib.StackMember
import Idealize.ShloMosaic.Lib.Pipeline.Value

noncomputable section

open scoped BigOperators

namespace Cert.ReferenceIdeal.Read

open Cert.ReferenceIdeal Cert.ReferenceIdeal.Facts₀ Idealize.ShloMosaic Idealize.ShloMosaic.ValueIdx

/-- A 128-vector laid along one row, read at column q of that row, is the vector's entry q. -/
private theorem oneRow128_apply (v : FVec Ideal S128 .f32) (q : Fin 128) :
    broadcastInDim S1x128 ![1] bcast_S128_S1x128_1 v (ix2 (0 : Fin 1) q) = v (ix1 q) := by
  refine broadcastInDim_apply ![1] bcast_S128_S1x128_1 v (ix2 (0 : Fin 1) q) (ix1 q) fun a => ?_
  match a with
  | ⟨0, _⟩ => rfl

/-- A 128-vector laid along every row, read at (r, q), is the vector's entry q. -/
private theorem alongRows_apply (v : FVec Ideal S128 .f32) (r : Fin 100000) (q : Fin 128) :
    Term.alongRows v (ix2 r q) = v (ix1 q) := by
  unfold Term.alongRows
  exact (broadcastInDim_oneRow_apply bcast_S1x128_S100000x128_0_1
    (broadcastInDim S1x128 ![1] bcast_S128_S1x128_1 v) r q).trans (oneRow128_apply v q)

theorem normed_eq (feat : FVec Ideal S100000x128 .f32) (g beta : FVec Ideal S128 .f32) :
    Term.normed feat g beta = Cert.Spec.normalized feat (Term.colMean feat) (Term.invStd feat) g beta := by
  funext i
  obtain ⟨r, q, rfl⟩ : ∃ (r : Fin 100000) (q : Fin 128), i = ix2 r q := ⟨i 0, i 1, eq_ix2 i⟩
  unfold Term.normed Cert.Spec.normalized
  show ((feat (ix2 r q) - Term.alongRows (Term.colMean feat) (ix2 r q)) * Term.alongRows (Term.invStd feat) (ix2 r q))
      * Term.alongRows g (ix2 r q) + Term.alongRows beta (ix2 r q)
    = ((feat (ix2 r q) - Term.colMean feat (ix1 q)) * Term.invStd feat (ix1 q)) * g (ix1 q) + beta (ix1 q)
  rw [alongRows_apply, alongRows_apply, alongRows_apply, alongRows_apply]

/-- The reference's three matrix products are plain row-by-column products. -/
private theorem dotA_eq : dot_S100000x128_S128x128_S100000x128_1_0_0_1_n_n = DotDims.plain 100000 128 128 := rfl
private theorem dotG_eq : dot_S100000x256_S256x256_S100000x256_1_0_0_1_n_n = DotDims.plain 100000 256 256 := rfl
private theorem dotB_eq : dot_S100000x128_S128x256_S100000x256_1_0_0_1_n_n = DotDims.plain 100000 128 256 := rfl

theorem proj_eq (x : FVec Ideal S100000x128 .f32) (W : FVec Ideal S128x128 .f32) (b : FVec Ideal S128 .f32) :
    Term.proj x W b = Cert.Spec.affineMap x W (broadcastInDim S1x128 ![1] bcast_S128_S1x128_1 b) := by
  funext i
  obtain ⟨r, q, rfl⟩ : ∃ (r : Fin 100000) (q : Fin 128), i = ix2 r q := ⟨i 0, i 1, eq_ix2 i⟩
  unfold Term.proj Term.alongRows Cert.Spec.affineMap
  show Host.dotGeneral dot_S100000x128_S128x128_S100000x128_1_0_0_1_n_n none x W (ix2 r q)
      + broadcastInDim S100000x128 ![0, 1] bcast_S1x128_S100000x128_0_1
          (broadcastInDim S1x128 ![1] bcast_S128_S1x128_1 b) (ix2 r q)
    = (∑ c : Fin 128, x (ix2 r c) * W (ix2 c q)) + broadcastInDim S1x128 ![1] bcast_S128_S1x128_1 b (ix2 (0 : Fin 1) q)
  rw [dotA_eq]
  exact congrArg₂ (· + ·) (StackMember.dotGeneral_plain_apply none x W r q)
    (broadcastInDim_oneRow_apply bcast_S1x128_S100000x128_0_1 (broadcastInDim S1x128 ![1] bcast_S128_S1x128_1 b) r q)

/-- The two aggregates side by side, as the host concatenates them along the columns, is the side-by-side array. -/
private theorem concat_eq (ain aout : FVec Ideal S100000x128 .f32) :
    concatenate S100000x256 1 [⟨S100000x128, ain⟩, ⟨S100000x128, aout⟩] concatenates_S100000x128_S100000x128_S100000x256_d1
      = Cert.Spec.catCols ain aout := by
  funext i
  obtain ⟨r, k, rfl⟩ : ∃ (r : Fin 100000) (k : Fin 256), i = ix2 r k := ⟨i 0, i 1, eq_ix2 i⟩
  unfold Cert.Spec.catCols
  show _ = if h : k.val < 128 then ain (ix2 r ⟨k.val, h⟩) else aout (ix2 r ⟨k.val - 128, by have := k.isLt; omega⟩)
  by_cases h : k.val < 128
  · rw [dif_pos h]
    refine concatenate_pair_apply_left (1 : Fin S100000x256.rank) ain aout
      concatenates_S100000x128_S100000x128_S100000x256_d1 (ix2 r k) rfl (ix2 r ⟨k.val, h⟩) fun b => ?_
    match b with
    | ⟨0, _⟩ => rfl
    | ⟨1, _⟩ => rfl
  · rw [dif_neg h]
    refine concatenate_pair_apply_right (1 : Fin S100000x256.rank) ain aout
      concatenates_S100000x128_S100000x128_S100000x256_d1 (ix2 r k) rfl rfl
      (ix2 r ⟨k.val - 128, by have := k.isLt; omega⟩) (fun b hb => ?_) ?_
    · match b with
      | ⟨0, _⟩ => rfl
      | ⟨1, _⟩ => exact absurd rfl hb
    · show (k.val - 128) + 128 = k.val
      omega

/-- f = [a_in | a_out]·Wg + bg read at (r, k). -/
private theorem gateF_apply (ain aout : FVec Ideal S100000x128 .f32) (Wg : FVec Ideal S256x256 .f32)
    (bg : FVec Ideal S256 .f32) (r : Fin 100000) (k : Fin 256) :
    Term.gateF ain aout Wg bg (ix2 r k)
      = Cert.Spec.affineMap (Cert.Spec.catCols ain aout) Wg (broadcastInDim S1x256 ![1] bcast_S256_S1x256_1 bg) (ix2 r k) := by
  unfold Term.gateF Cert.Spec.affineMap
  rw [concat_eq, dotG_eq]
  show Host.dotGeneral (DotDims.plain 100000 256 256) none (Cert.Spec.catCols ain aout) Wg (ix2 r k)
      + broadcastInDim S100000x256 ![0, 1] bcast_S1x256_S100000x256_0_1
          (broadcastInDim S1x256 ![1] bcast_S256_S1x256_1 bg) (ix2 r k)
    = (∑ c : Fin 256, Cert.Spec.catCols ain aout (ix2 r c) * Wg (ix2 c k))
      + broadcastInDim S1x256 ![1] bcast_S256_S1x256_1 bg (ix2 (0 : Fin 1) k)
  exact congrArg₂ (· + ·) (StackMember.dotGeneral_plain_apply none (Cert.Spec.catCols ain aout) Wg r k)
    (broadcastInDim_oneRow_apply bcast_S1x256_S100000x256_0_1 (broadcastInDim S1x256 ![1] bcast_S256_S1x256_1 bg) r k)

/-- b = x·Wgo read at (r, k). -/
private theorem gateB_apply (x : FVec Ideal S100000x128 .f32) (Wgo : FVec Ideal S128x256 .f32)
    (r : Fin 100000) (k : Fin 256) :
    Term.gateB x Wgo (ix2 r k) = Cert.Spec.matProd x Wgo (ix2 r k) := by
  unfold Term.gateB Cert.Spec.matProd
  rw [dotB_eq]
  exact StackMember.dotGeneral_plain_apply none x Wgo r k

/-- The left half's column q of a 256-column array. -/
private theorem sliceLo_apply (f : FVec Ideal S100000x256 .f32) (r : Fin 100000) (q : Fin 128) :
    extractStridedSlice S100000x128 ![0, 0] f slices_S100000x256_S100000x128_0_0 (ix2 r q) = f (ix2 r (Cert.Spec.lo q)) := by
  refine extractStridedSlice_apply ![0, 0] f slices_S100000x256_S100000x128_0_0 (ix2 r q) (ix2 r (Cert.Spec.lo q)) fun a => ?_
  match a with
  | ⟨0, _⟩ => show r.val = 0 + r.val; omega
  | ⟨1, _⟩ => show q.val = 0 + q.val; omega

/-- The right half's column q of a 256-column array. -/
private theorem sliceHi_apply (f : FVec Ideal S100000x256 .f32) (r : Fin 100000) (q : Fin 128) :
    extractStridedSlice S100000x128 ![0, 128] f slices_S100000x256_S100000x128_0_128 (ix2 r q) = f (ix2 r (Cert.Spec.hi q)) := by
  refine extractStridedSlice_apply ![0, 128] f slices_S100000x256_S100000x128_0_128 (ix2 r q) (ix2 r (Cert.Spec.hi q)) fun a => ?_
  match a with
  | ⟨0, _⟩ => show r.val = 0 + r.val; omega
  | ⟨1, _⟩ => show q.val + 128 = 128 + q.val; omega

/-- The constant one laid over the whole array. -/
private theorem ones_apply (i : S100000x128.Idx) :
    broadcastInDim S100000x128 ![] bcast_S_S100000x128 (constant (F := Ideal) S_ .f32 0x3F800000#32) i = (1 : EReal) :=
  (broadcastInDim_scalar_apply bcast_S_S100000x128 (constant (F := Ideal) S_ .f32 0x3F800000#32) i).trans Ideal.ofBits_one_f32

/-- The gated update from any f and b, read at (r, q). -/
private theorem gateOut_apply (x : FVec Ideal S100000x128 .f32) (f b : FVec Ideal S100000x256 .f32)
    (r : Fin 100000) (q : Fin 128) :
    Term.gateOut x f b (ix2 r q)
      = Ideal.tanh (f (ix2 r (Cert.Spec.hi q)) + b (ix2 r (Cert.Spec.hi q)))
        + Ideal.logistic (f (ix2 r (Cert.Spec.lo q)) + b (ix2 r (Cert.Spec.lo q)))
          * (x (ix2 r q) - Ideal.tanh (f (ix2 r (Cert.Spec.hi q)) + b (ix2 r (Cert.Spec.hi q)))) := by
  unfold Term.gateOut Ideal.logistic
  show Ideal.tanh (extractStridedSlice S100000x128 ![0, 128] f slices_S100000x256_S100000x128_0_128 (ix2 r q)
          + extractStridedSlice S100000x128 ![0, 128] b slices_S100000x256_S100000x128_0_128 (ix2 r q))
      + Ideal.div (broadcastInDim S100000x128 ![] bcast_S_S100000x128 (constant (F := Ideal) S_ .f32 0x3F800000#32) (ix2 r q))
          (broadcastInDim S100000x128 ![] bcast_S_S100000x128 (constant (F := Ideal) S_ .f32 0x3F800000#32) (ix2 r q)
            + Ideal.exp (-(extractStridedSlice S100000x128 ![0, 0] f slices_S100000x256_S100000x128_0_0 (ix2 r q)
              + extractStridedSlice S100000x128 ![0, 0] b slices_S100000x256_S100000x128_0_0 (ix2 r q))))
        * (x (ix2 r q) - Ideal.tanh (extractStridedSlice S100000x128 ![0, 128] f slices_S100000x256_S100000x128_0_128 (ix2 r q)
          + extractStridedSlice S100000x128 ![0, 128] b slices_S100000x256_S100000x128_0_128 (ix2 r q)))
    = _
  rw [ones_apply, sliceHi_apply f r q, sliceHi_apply b r q, sliceLo_apply f r q, sliceLo_apply b r q]

theorem gated_eq (x ain aout : FVec Ideal S100000x128 .f32) (Wg : FVec Ideal S256x256 .f32) (bg : FVec Ideal S256 .f32)
    (Wgo : FVec Ideal S128x256 .f32) :
    Term.gated x ain aout Wg bg Wgo
      = Cert.Spec.gate x ain aout Wg (broadcastInDim S1x256 ![1] bcast_S256_S1x256_1 bg) Wgo := by
  funext i
  obtain ⟨r, q, rfl⟩ : ∃ (r : Fin 100000) (q : Fin 128), i = ix2 r q := ⟨i 0, i 1, eq_ix2 i⟩
  unfold Term.gated Cert.Spec.gate
  rw [gateOut_apply, gateF_apply, gateF_apply, gateB_apply, gateB_apply]

end Cert.ReferenceIdeal.Read

end
-- ==== Proof.Algebra.lean ====
/-
  The one algebraic law the two programs differ by. With s = g·r and h = beta − (mu·g)·r, every entry
  a·s + h equals ((a − mu)·r)·g + beta. Over the reals this is distributivity; on the extended reals distributivity
  fails at the infinities, so the law is stated for entries that are real numbers (finite inputs make the features,
  the column mean, the reciprocal deviation, the scale and the offset real).
-/
import proofs.«135574_j25091198943527_1_alg».proof.Proof.Spec
import Idealize.ShloMosaic.Lib.Pipeline.Value

noncomputable section

namespace Cert.Algebra

open Idealize.ShloMosaic Idealize.ShloMosaic.ValueIdx Cert.Spec

/-- On real numbers: a·(γ·ρ) + (β − (μ·γ)·ρ) = ((a − μ)·ρ)·γ + β. -/
theorem fold_real (a μ ρ γ β : ℝ) :
    ((a : EReal)) * ((γ : EReal) * (ρ : EReal)) + ((β : EReal) - ((μ : EReal) * (γ : EReal)) * (ρ : EReal))
      = (((a : EReal) - (μ : EReal)) * (ρ : EReal)) * (γ : EReal) + (β : EReal) := by
  rw [← EReal.coe_mul, ← EReal.coe_mul, ← EReal.coe_mul, ← EReal.coe_mul, ← EReal.coe_sub, ← EReal.coe_add,
    ← EReal.coe_sub, ← EReal.coe_mul, ← EReal.coe_mul, ← EReal.coe_add]
  congr 1
  ring

/-- A 128-vector laid out as one row, read at (0, q), is the vector at q. -/
theorem oneRow_apply {α : Type} (v : (⟨1, ![128]⟩ : Shape).Idx → α)
    (h : (⟨1, ![128]⟩ : Shape).ShapeCasts ⟨2, ![1, 128]⟩) (q : Fin 128) :
    shapeCast ⟨2, ![1, 128]⟩ v h (ix2 (0 : Fin 1) q) = v (ix1 q) := by
  refine shapeCast_apply v h (ix2 (0 : Fin 1) q) (ix1 q) ?_
  rw [Shape.rowMajor_val_two, Shape.rowMajor_val_one]
  show q.val = 0 * 128 + q.val
  omega

/-- The scaled-and-shifted rows with the scale g·r and the shift beta − (mu·g)·r, each laid out as one row, are the
    normalised rows, when every entry involved is a real number. -/
theorem scaleShift_eq_normalized (A : (⟨2, ![100000, 128]⟩ : Shape).Idx → EReal)
    (mu rs g beta : (⟨1, ![128]⟩ : Shape).Idx → EReal)
    (h1 h2 : (⟨1, ![128]⟩ : Shape).ShapeCasts ⟨2, ![1, 128]⟩)
    (hA : ∀ i, ∃ x : ℝ, A i = (x : EReal)) (hmu : ∀ j, ∃ x : ℝ, mu j = (x : EReal))
    (hrs : ∀ j, ∃ x : ℝ, rs j = (x : EReal)) (hg : ∀ j, ∃ x : ℝ, g j = (x : EReal))
    (hbeta : ∀ j, ∃ x : ℝ, beta j = (x : EReal)) :
    scaleShift A (shapeCast ⟨2, ![1, 128]⟩ (fun j => g j * rs j) h1)
        (shapeCast ⟨2, ![1, 128]⟩ (fun j => beta j - (mu j * g j) * rs j) h2)
      = normalized A mu rs g beta := by
  funext i
  obtain ⟨r, q, rfl⟩ : ∃ (r : Fin 100000) (q : Fin 128), i = ix2 r q := ⟨i 0, i 1, eq_ix2 i⟩
  show A (ix2 r q) * shapeCast ⟨2, ![1, 128]⟩ (fun j => g j * rs j) h1 (ix2 0 q)
        + shapeCast ⟨2, ![1, 128]⟩ (fun j => beta j - (mu j * g j) * rs j) h2 (ix2 0 q)
      = ((A (ix2 r q) - mu (ix1 q)) * rs (ix1 q)) * g (ix1 q) + beta (ix1 q)
  rw [oneRow_apply, oneRow_apply]
  obtain ⟨a, ha⟩ := hA (ix2 r q)
  obtain ⟨μ, hμ⟩ := hmu (ix1 q)
  obtain ⟨ρ, hρ⟩ := hrs (ix1 q)
  obtain ⟨γ, hγ⟩ := hg (ix1 q)
  obtain ⟨β, hβ⟩ := hbeta (ix1 q)
  show A (ix2 r q) * (g (ix1 q) * rs (ix1 q)) + (beta (ix1 q) - (mu (ix1 q) * g (ix1 q)) * rs (ix1 q)) = _
  rw [ha, hμ, hρ, hγ, hβ]
  exact fold_real a μ ρ γ β

end Cert.Algebra

end
-- ==== Proof.Finite.lean ====
/-
  What the precondition says of the three inputs the normalisation's algebra uses. The precondition is a conjunction,
  one conjunct per float input, each "every entry's magnitude is below +∞"; a magnitude below +∞ on the extended reals
  means the entry is a real number. Read here for the features, the scale g and the offset beta.
-/
import proofs.«135574_j25091198943527_1_alg».proof.Pre_finite_inputs
import proofs.«135574_j25091198943527_1_alg».proof.Proof.Gen.Pre_finite_inputs
import Idealize.ShloMosaic.Lib.ReduceAll
import Idealize.ShloMosaic.Lib.ValueIdx
import Idealize.ShloMosaic.PureOps.Ideal

set_option maxRecDepth 16384

noncomputable section

namespace Cert.Finite

open Idealize.ShloMosaic Idealize.ShloMosaic.ValueIdx Cert.Pre_finite_inputs

/-- A value whose magnitude compares below +∞ is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

instance : Subsingleton (⟨0, ![]⟩ : Shape).Idx := ⟨fun a b => funext fun d => d.elim0⟩

/-- One conjunct of the precondition: if "all entries have magnitude below +∞" holds of an array, each entry is real. -/
theorem all_real {S : Shape} {axes : List (Fin S.rank)} (x : FVec Ideal S .f32)
    (hb : (⟨0, ![]⟩ : Shape).BroadcastsInDim S ![]) (hr : S.ReducesTo axes ⟨0, ![]⟩) (hu : 0 < (⟨0, ![]⟩ : Shape).numel)
    (e : Host.reduce IntOp.andi
          (cmpf .olt (Host.absf x) (broadcastInDim S ![] hb (constant ⟨0, ![]⟩ .f32 0x7F800000#32)))
          (constantI ⟨0, ![]⟩ 1 1#1) hr hu ix0 = 1#1) (i : S.Idx) : ∃ r : ℝ, x i = (r : EReal) :=
  real_of_abs_lt_inf (x i) (Host.reduce_andi_all _ _ hr hu ix0 e i)

/-- Under the precondition the features, the scale g and the offset beta have real entries. -/
theorem reals_of_pre (a0 : FVec Ideal S100000x128 .f32) (a1 a2 : IVec S1600000 32) (a3 a4 : FVec Ideal S1600000 .f32)
    (a5 a6 : FVec Ideal S128 .f32) (a7 : FVec Ideal S128x128 .f32) (a8 : FVec Ideal S128 .f32)
    (a9 : FVec Ideal S128x128 .f32) (a10 : FVec Ideal S128 .f32) (a11 : FVec Ideal S256x256 .f32)
    (a12 : FVec Ideal S256 .f32) (a13 : FVec Ideal S128x256 .f32)
    (h : fn (F := Ideal) a0 a1 a2 a3 a4 a5 a6 a7 a8 a9 a10 a11 a12 a13 = fun _ => 1#1) :
    (∀ i, ∃ r : ℝ, a0 i = (r : EReal)) ∧ (∀ i, ∃ r : ℝ, a5 i = (r : EReal)) ∧ (∀ i, ∃ r : ℝ, a6 i = (r : EReal)) := by
  have e58 := congrFun h ix0
  dsimp only [fn, fn_part1, fn_part2, fn_part3] at e58
  have e53 := (IntOp.andi_eq_one.1 e58).1
  have e48 := (IntOp.andi_eq_one.1 e53).1
  have e43 := (IntOp.andi_eq_one.1 e48).1
  have e38 := (IntOp.andi_eq_one.1 e43).1
  have e33 := (IntOp.andi_eq_one.1 e38).1
  have e28 := (IntOp.andi_eq_one.1 e33).1
  have e23 := (IntOp.andi_eq_one.1 e28).1
  have e22 := (IntOp.andi_eq_one.1 e23).2
  have e18 := (IntOp.andi_eq_one.1 e23).1
  have e17 := (IntOp.andi_eq_one.1 e18).2
  have e13 := (IntOp.andi_eq_one.1 e18).1
  have e8 := (IntOp.andi_eq_one.1 e13).1
  have e3 := (IntOp.andi_eq_one.1 e8).1
  exact ⟨fun i => all_real a0 _ _ _ e3 i, fun i => all_real a5 _ _ _ e17 i, fun i => all_real a6 _ _ _ e22 i⟩

end Cert.Finite

end
-- ==== Proof.Stats.lean ====
/-
  The column statistics of real features are real. The column mean is a finite sum of reals divided by 100000. The
  variance's guard (100000 − 0 > 0) holds, so the variance is the mean of the squared deviations: a finite sum of
  squares of reals divided by 100000, a nonnegative real. Adding the small positive constant makes it positive, and the
  reciprocal square root of a positive real is a real. These are the facts the normalisation's algebra needs.
-/
import proofs.«135574_j25091198943527_1_alg».proof.Proof.RefTerm
import Idealize.ShloMosaic.Lib.IdealHost
import Idealize.ShloMosaic.Lib.KernelVsHost
import Idealize.ShloMosaic.Lib.ValueIdx

set_option maxRecDepth 16384

noncomputable section

open scoped BigOperators

namespace Cert.ReferenceIdeal.Stats

open Idealize.ShloMosaic Idealize.ShloMosaic.ValueIdx
open Cert.ReferenceIdeal Cert.ReferenceIdeal.Facts₀ Cert.ReferenceIdeal.Term

/-- The zero pattern denotes 0. -/
theorem ofBits_zero : Ideal.ofBits .f32 0x00000000#32 = 0 := by simp [Ideal.ofBits, Ideal.ieee]

/-- The row count's pattern denotes 100000. -/
theorem ofBits_rows : Ideal.ofBits .f32 0x47C35000#32 = ((100000 : ℝ) : EReal) := by
  simp [Ideal.ofBits, Ideal.ieee, -EReal.coe_mul]; norm_num

/-- The small constant's pattern denotes a positive real (10995116 · 2^−40). -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- A finite sum of reals is a real. -/
theorem sum_real {ι : Type} (s : Finset ι) (f : ι → EReal) :
    (∀ i ∈ s, ∃ r : ℝ, f i = (r : EReal)) → ∃ r : ℝ, ∑ i ∈ s, f i = (r : EReal) := by
  classical
  refine Finset.induction_on s ?_ ?_
  · intro _; exact ⟨0, by simp⟩
  · intro a s ha ih hf
    obtain ⟨x, hx⟩ := hf a (Finset.mem_insert_self a s)
    obtain ⟨y, hy⟩ := ih (fun i hi => hf i (Finset.mem_insert_of_mem hi))
    exact ⟨x + y, by rw [Finset.sum_insert ha, hx, hy, EReal.coe_add]⟩

/-- A finite sum of nonnegative reals is a nonnegative real. -/
theorem sum_real_nonneg {ι : Type} (s : Finset ι) (f : ι → EReal) :
    (∀ i ∈ s, ∃ r : ℝ, 0 ≤ r ∧ f i = (r : EReal)) → ∃ r : ℝ, 0 ≤ r ∧ ∑ i ∈ s, f i = (r : EReal) := by
  classical
  refine Finset.induction_on s ?_ ?_
  · intro _; exact ⟨0, le_refl _, by simp⟩
  · intro a s ha ih hf
    obtain ⟨x, hx0, hx⟩ := hf a (Finset.mem_insert_self a s)
    obtain ⟨y, hy0, hy⟩ := ih (fun i hi => hf i (Finset.mem_insert_of_mem hi))
    exact ⟨x + y, add_nonneg hx0 hy0, by rw [Finset.sum_insert ha, hx, hy, EReal.coe_add]⟩

/-- The column sums from zero, over 100000, of real entries: a real. -/
theorem meanLike_real {T : Shape} (x : FVec Ideal S100000x128 .f32) (hx : ∀ i, ∃ r : ℝ, x i = (r : EReal))
    (h : S100000x128.ReducesTo [0] T) (j : T.Idx) :
    ∃ r : ℝ, Ideal.div (Ideal.hostReduceAdd h x (Ideal.ofBits .f32 0x00000000#32) j) (Ideal.ofBits .f32 0x47C35000#32)
      = (r : EReal) := by
  obtain ⟨s, hs⟩ := sum_real (Finset.univ.filter fun i => h.drop i = j) x (fun i _ => hx i)
  refine ⟨s * (1 / 100000), ?_⟩
  unfold Ideal.hostReduceAdd
  rw [ofBits_zero, ofBits_rows, zero_add, hs, Ideal.div_coe (by norm_num), ← EReal.coe_mul]

/-- The column mean of real features is real. -/
theorem colMean_real (feat : FVec Ideal S100000x128 .f32) (hf : ∀ i, ∃ r : ℝ, feat i = (r : EReal)) (j : S128.Idx) :
    ∃ r : ℝ, colMean feat j = (r : EReal) := by
  have key := meanLike_real feat hf reducesTo_S100000x128_S128_d0 j
  obtain ⟨r, hr⟩ := key
  refine ⟨r, ?_⟩
  rw [← hr]
  show Ideal.div (Ideal.hostReduceAdd reducesTo_S100000x128_S128_d0 feat
        ((constant (F := Ideal) S_ .f32 0x00000000#32) (Shape.Idx.first h_S_)) j)
      ((broadcastInDim S128 ![] bcast_S_S128 (constant (F := Ideal) S_ .f32 0x47C35000#32)) j) = _
  rw [broadcastInDim_scalar_apply, constant_apply, constant_apply]

/-- The divisor the variance uses, 100000 − 0, is 100000. -/
theorem divisor_eq :
    Ideal.ofBits .f32 0x47C35000#32 - (FloatOps.sitofp (F := Ideal) .f32 (0#32 : BitVec 32)) = ((100000 : ℝ) : EReal) := by
  have hz : (FloatOps.sitofp (F := Ideal) .f32 (0#32 : BitVec 32)) = (0 : EReal) := sitofp_zero
  rw [hz, ofBits_rows, sub_zero]

/-- The column variance of real features is a nonnegative real. -/
theorem colVar_real (feat : FVec Ideal S100000x128 .f32) (hf : ∀ i, ∃ r : ℝ, feat i = (r : EReal)) (j : S128.Idx) :
    ∃ v : ℝ, 0 ≤ v ∧ colVar feat j = (v : EReal) := by
  -- the deviations from the column mean are real, so their squares are nonnegative reals
  have hdev : ∀ i : S100000x128.Idx, ∃ r : ℝ, 0 ≤ r ∧
      (mulf
        (subf feat (broadcastInDim S100000x128 ![0, 1] bcast_S1x128_S100000x128_0_1
          (Host.divf (broadcastInDim S1x128 ![1] bcast_S128_S1x128_1
              (Host.reduceAdd feat (constant S_ .f32 0x00000000#32) reducesTo_S100000x128_S128_d0 h_S_))
            (broadcastInDim S1x128 ![] bcast_S_S1x128 (constant S_ .f32 0x47C35000#32)))))
        (subf feat (broadcastInDim S100000x128 ![0, 1] bcast_S1x128_S100000x128_0_1
          (Host.divf (broadcastInDim S1x128 ![1] bcast_S128_S1x128_1
              (Host.reduceAdd feat (constant S_ .f32 0x00000000#32) reducesTo_S100000x128_S128_d0 h_S_))
            (broadcastInDim S1x128 ![] bcast_S_S1x128 (constant S_ .f32 0x47C35000#32)))))) i = (r : EReal) := by
    intro i
    obtain ⟨a, ha⟩ := hf i
    -- the broadcast mean at i is one entry of the one-row mean, itself a column sum over 100000
    have hmu : ∃ b : ℝ, (broadcastInDim S100000x128 ![0, 1] bcast_S1x128_S100000x128_0_1
          (Host.divf (broadcastInDim S1x128 ![1] bcast_S128_S1x128_1
              (Host.reduceAdd feat (constant S_ .f32 0x00000000#32) reducesTo_S100000x128_S128_d0 h_S_))
            (broadcastInDim S1x128 ![] bcast_S_S1x128 (constant S_ .f32 0x47C35000#32)))) i = (b : EReal) := by
      unfold broadcastInDim
      show ∃ b : ℝ, Ideal.div (Ideal.hostReduceAdd reducesTo_S100000x128_S128_d0 feat
            ((constant (F := Ideal) S_ .f32 0x00000000#32) (Shape.Idx.first h_S_)) _)
          ((constant (F := Ideal) S_ .f32 0x47C35000#32) _) = (b : EReal)
      rw [constant_apply, constant_apply]
      exact meanLike_real feat hf reducesTo_S100000x128_S128_d0 _
    obtain ⟨b, hb⟩ := hmu
    refine ⟨(a - b) * (a - b), mul_self_nonneg _, ?_⟩
    rw [mulf_apply, subf_apply, ha, hb, ← EReal.coe_sub, ← EReal.coe_mul]
  obtain ⟨s, hs0, hs⟩ := sum_real_nonneg
    (Finset.univ.filter fun i => reducesTo_S100000x128_S128_d0.drop i = j) _ (fun i _ => hdev i)
  refine ⟨s * (1 / 100000), mul_nonneg hs0 (by norm_num), ?_⟩
  unfold colVar
  rw [select_apply, broadcastInDim_scalar_apply]
  have hcond : (cmpf (F := Ideal) .ogt (subf (constant S_ .f32 0x47C35000#32) (sitofp .f32 (constantI S_ 32 0#32)))
      (constant S_ .f32 0x00000000#32)) ix0 = 1#1 := by
    show Ideal.cmp .ogt (Ideal.ofBits .f32 0x47C35000#32 - FloatOps.sitofp (F := Ideal) .f32 (0#32 : BitVec 32))
      (Ideal.ofBits .f32 0x00000000#32) = 1#1
    rw [divisor_eq, ofBits_zero]
    simp [Ideal.cmp]
  rw [hcond, select_one, hostDivf_apply, hostReduceAdd_apply, broadcastInDim_scalar_apply]
  show Ideal.div (Ideal.hostReduceAdd reducesTo_S100000x128_S128_d0 _ (Ideal.ofBits .f32 0x00000000#32) j)
      (Ideal.ofBits .f32 0x47C35000#32 - FloatOps.sitofp (F := Ideal) .f32 (0#32 : BitVec 32)) = _
  unfold Ideal.hostReduceAdd
  rw [divisor_eq, ofBits_zero, zero_add, hs, Ideal.div_coe (by norm_num), ← EReal.coe_mul]

/-- The reciprocal deviation of real features is real: the variance plus the small constant is a positive real. -/
theorem invStd_real (feat : FVec Ideal S100000x128 .f32) (hf : ∀ i, ∃ r : ℝ, feat i = (r : EReal)) (j : S128.Idx) :
    ∃ r : ℝ, invStd feat j = (r : EReal) := by
  obtain ⟨v, hv0, hv⟩ := colVar_real feat hf j
  obtain ⟨e, he0, he⟩ := ofBits_eps
  have hpos : 0 < v + e := by linarith
  refine ⟨(Real.sqrt (v + e))⁻¹, ?_⟩
  show Ideal.rsqrt (colVar feat j + (broadcastInDim S128 ![] bcast_S_S128 (constant (F := Ideal) S_ .f32 0x3727C5AC#32)) j) = _
  rw [broadcastInDim_scalar_apply, constant_apply, hv, he, ← EReal.coe_add, Ideal.rsqrt_coe,
    if_neg (not_lt.mpr hpos.le), if_neg hpos.ne']

end Cert.ReferenceIdeal.Stats

end
-- ==== Proof.Bridge.lean ====
/-
  The kernel program's result array is the reference's term of the launch arguments.
  The second region's output is the gate of the arrays it finds (Reg1); those are the first region's normalised rows
  and the two aggregates of its projections (HostK, Reg0); the first region's scale-and-shift is the reference's
  normalisation because the features, the scale, the offset and the column statistics are real under the precondition
  (Finite, Stats, Algebra); a projection and the gate are the reference's stages read entry by entry (RefRead); and a bias
  vector laid out as one row is the same array whether the host reshapes it or broadcasts it along axis 1.
-/
import proofs.«135574_j25091198943527_1_alg».proof.Defs
import proofs.«135574_j25091198943527_1_alg».proof.Proof.HostK
import proofs.«135574_j25091198943527_1_alg».proof.Proof.Reg0
import proofs.«135574_j25091198943527_1_alg».proof.Proof.Reg1
import proofs.«135574_j25091198943527_1_alg».proof.Proof.RefRead
import proofs.«135574_j25091198943527_1_alg».proof.Proof.Algebra
import proofs.«135574_j25091198943527_1_alg».proof.Proof.Finite
import proofs.«135574_j25091198943527_1_alg».proof.Proof.Stats

set_option maxRecDepth 16384

noncomputable section

namespace Cert.Bridge

open Cert.KernelIdeal Cert.KernelIdeal.Gen Cert.ReferenceIdeal.Term
open Idealize.ShloMosaic Idealize.ShloMosaic.TcCoe Idealize.SL.Sem Idealize.ShloMosaic.ValueIdx

/-- A vector laid out as one row: the reshape [n] → [1, n] and the broadcast along axis 1 into [1, n] are one array. -/
theorem oneRow_eq {α : Type} {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  have e2 := shapeCast_apply x h1 i (ix1 (i 1 : Fin n)) (by
    rw [Shape.rowMajor_val_two, Shape.rowMajor_val_one]
    have h0 : (i 0).val = 0 := by have := (i 0).isLt; have e : (i 0).val < 1 := this; omega
    show (i 1).val = (i 0).val * n + (i 1).val
    rw [h0]; omega)
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

variable (m : (ℓ : Loc nD τ sig) → Buf (Elt Ideal) ℓ) (ρ : Dev nD → PrngReg)

/-- The first region's first output: the reference's normalised rows. -/
theorem x_eq (c : Dev nD) (hpre : Cert.Pre_KernelIdeal m) :
    (dat0 (V3 m ρ) c).arrAt 7 cfg0.N = normed (m ((c.tc : Thread nD τ).loc main_arg0)) (m ((c.tc : Thread nD τ).loc main_arg5)) (m ((c.tc : Thread nD τ).loc main_arg6)) := by
  obtain ⟨hfeat, hg, hbeta⟩ := Cert.Finite.reals_of_pre (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (hpre c)
  rw [Cert.KernelIdeal.Reg0.x_arr (V3 m ρ) c]
  show Cert.Spec.scaleShift (W3 m ρ c (Proc.devRef .tc main_arg0)) (W3 m ρ c (Proc.devRef .tc main_v8))
      (W3 m ρ c (Proc.devRef .tc main_v12)) = _
  rw [Cert.KernelIdeal.HostK.W3_arg0, Cert.KernelIdeal.HostK.W3_scale, Cert.KernelIdeal.HostK.W3_shift,
    Cert.ReferenceIdeal.Read.normed_eq]
  exact Cert.Algebra.scaleShift_eq_normalized _ (colMean (m ((c.tc : Thread nD τ).loc main_arg0))) (invStd (m ((c.tc : Thread nD τ).loc main_arg0))) (m ((c.tc : Thread nD τ).loc main_arg5)) (m ((c.tc : Thread nD τ).loc main_arg6)) _ _ hfeat
    (Cert.ReferenceIdeal.Stats.colMean_real _ hfeat) (Cert.ReferenceIdeal.Stats.invStd_real _ hfeat) hg hbeta

/-- The first region's second output: the first projection of the normalised rows. -/
theorem fin_eq (c : Dev nD) (hpre : Cert.Pre_KernelIdeal m) :
    (dat0 (V3 m ρ) c).arrAt 8 cfg0.N = proj (normed (m ((c.tc : Thread nD τ).loc main_arg0)) (m ((c.tc : Thread nD τ).loc main_arg5)) (m ((c.tc : Thread nD τ).loc main_arg6))) (m ((c.tc : Thread nD τ).loc main_arg7)) (m ((c.tc : Thread nD τ).loc main_arg8)) := by
  rw [Cert.KernelIdeal.Reg0.fin_arr (V3 m ρ) c, ← Cert.KernelIdeal.Reg0.x_arr (V3 m ρ) c, x_eq m ρ c hpre]
  show Cert.Spec.affineMap _ (W3 m ρ c (Proc.devRef .tc main_arg7)) (W3 m ρ c (Proc.devRef .tc main_v13)) = _
  rw [Cert.KernelIdeal.HostK.W3_arg7, Cert.KernelIdeal.HostK.W3_bin, Cert.ReferenceIdeal.Read.proj_eq]
  exact congrArg (Cert.Spec.affineMap _ _) (oneRow_eq _ _ _)

/-- The first region's third output: the second projection. -/
theorem fout_eq (c : Dev nD) (hpre : Cert.Pre_KernelIdeal m) :
    (dat0 (V3 m ρ) c).arrAt 9 cfg0.N = proj (normed (m ((c.tc : Thread nD τ).loc main_arg0)) (m ((c.tc : Thread nD τ).loc main_arg5)) (m ((c.tc : Thread nD τ).loc main_arg6))) (m ((c.tc : Thread nD τ).loc main_arg9)) (m ((c.tc : Thread nD τ).loc main_arg10)) := by
  rw [Cert.KernelIdeal.Reg0.fout_arr (V3 m ρ) c, ← Cert.KernelIdeal.Reg0.x_arr (V3 m ρ) c, x_eq m ρ c hpre]
  show Cert.Spec.affineMap _ (W3 m ρ c (Proc.devRef .tc main_arg9)) (W3 m ρ c (Proc.devRef .tc main_v14)) = _
  rw [Cert.KernelIdeal.HostK.W3_arg9, Cert.KernelIdeal.HostK.W3_bout, Cert.ReferenceIdeal.Read.proj_eq]
  exact congrArg (Cert.Spec.affineMap _ _) (oneRow_eq _ _ _)

/-- The kernel program's result array is the reference's result of the launch arguments. -/
theorem kernel_result (c : Dev nD) (hpre : Cert.Pre_KernelIdeal m) :
    W6 m ρ c (Proc.devRef .tc main_v43) = Cert.ReferenceIdeal.Term.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [Cert.KernelIdeal.HostK.W6_result, Cert.KernelIdeal.Reg1.out_arr (V5 m ρ) c]
  show Cert.Spec.gate (W5 m ρ c (Proc.devRef .tc main_v16_0)) (W5 m ρ c (Proc.devRef .tc main_v29))
      (W5 m ρ c (Proc.devRef .tc main_v42)) (W5 m ρ c (Proc.devRef .tc main_arg11)) (W5 m ρ c (Proc.devRef .tc main_v15))
      (W5 m ρ c (Proc.devRef .tc main_arg13)) = _
  rw [Cert.KernelIdeal.HostK.W5_x, Cert.KernelIdeal.HostK.W5_ain, Cert.KernelIdeal.HostK.W5_aout,
    Cert.KernelIdeal.HostK.W5_arg11, Cert.KernelIdeal.HostK.W5_bg, Cert.KernelIdeal.HostK.W5_arg13,
    x_eq m ρ c hpre, fin_eq m ρ c hpre, fout_eq m ρ c hpre]
  unfold Cert.ReferenceIdeal.Term.result
  rw [Cert.ReferenceIdeal.Read.gated_eq]
  exact congrArg (fun b => Cert.Spec.gate _ _ _ _ b _) (oneRow_eq _ _ _)

end Cert.Bridge

end
-- ==== Proof.lean ====
/-
  The certificate: the kernel program (the normalisation and two projections in one launch, the edge aggregation on the
  host, the gated update in a second launch) and its reference end with the same result on the extended reals, from
  finite inputs.
  The word-level and the idealised kernel programs run, fault-free, with their arguments unchanged: the generated frames.
  The reference runs to the composed term of its stages (RefRun), which gives its frame too. The idealisation rewrote
  nothing, so there is nothing to preserve. And the idealised kernel's result array is that same term of the arguments
  (Bridge), so from memories agreeing on the arguments the two results are equal entry by entry.
-/
import proofs.«135574_j25091198943527_1_alg».proof.Defs
import proofs.«135574_j25091198943527_1_alg».proof.Proof.Gen.Kernel
import proofs.«135574_j25091198943527_1_alg».proof.Proof.Gen.Kernel.Frame
import proofs.«135574_j25091198943527_1_alg».proof.Proof.Gen.KernelIdeal
import proofs.«135574_j25091198943527_1_alg».proof.Proof.Gen.KernelIdeal.Frame
import proofs.«135574_j25091198943527_1_alg».proof.Proof.Gen.ReferenceIdeal
import proofs.«135574_j25091198943527_1_alg».proof.Proof.Gen.Pre_finite_inputs
import proofs.«135574_j25091198943527_1_alg».proof.Proof.KRun
import proofs.«135574_j25091198943527_1_alg».proof.Proof.RefRun
import proofs.«135574_j25091198943527_1_alg».proof.Proof.Bridge

set_option maxRecDepth 16384

noncomputable section

namespace Cert.Proof

open Idealize.ShloMosaic Idealize.SL.Sem

/-- The reference's frame: its run with the result forgotten. -/
theorem frame_ref : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.RefRun.run m ρ)

/-- From memories agreeing on the arguments both programs end at the reference's term of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Term.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.Bridge.kernel_result m ρ c hpre), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.RefRun.run m' ρ')
    obtain ⟨h0, h1, h2, h3, h4, h5, h6, h7, h8, h9, h10, h11, h12, h13⟩ := hagree c
    rw [h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_ref, trivial, algebraic⟩

end Cert.Proof

end
